-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S2x640000 32) (main_arg2 : IVec S40000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x2 .f32) (main_arg10 : FVec F S2 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S4000x128 : Shape := ⟨2, ![4000, 128]⟩
abbrev S4000x1 : Shape := ⟨2, ![4000, 1]⟩
abbrev S64 : Shape := ⟨1, ![64]⟩
abbrev S64x1 : Shape := ⟨2, ![64, 1]⟩
abbrev S1x2 : Shape := ⟨2, ![1, 2]⟩
abbrev S64x2 : Shape := ⟨2, ![64, 2]⟩
abbrev S64x128 : Shape := ⟨2, ![64, 128]⟩
abbrev S4000x64 : Shape := ⟨2, ![4000, 64]⟩

abbrev nBuf : Space → Nat
  | .hbm => 62
  | .vmem => 31
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x2, .f32⟩
  | .hbm, ⟨10, _⟩ => ⟨S2, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S40000, .f32⟩
  | .hbm, ⟨19, _⟩ => ⟨S640000x1, .i32⟩
  | .hbm, ⟨20, _⟩ => ⟨S40000, .f32⟩
  | .hbm, ⟨21, _⟩ => ⟨S40000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S40000x128, .f32⟩
  | .hbm, ⟨33, _⟩ => ⟨S640000x1, .i32⟩
  | .hbm, ⟨34, _⟩ => ⟨S40000x128, .f32⟩
  | .hbm, ⟨35, _⟩ => ⟨S1x128, .f32⟩
  | .hbm, ⟨36, _⟩ => ⟨S40000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S40000x128, .f32⟩
  | .hbm, ⟨48, _⟩ => ⟨S640000x1, .i32⟩
  | .hbm, ⟨49, _⟩ => ⟨S40000x128, .f32⟩
  | .hbm, ⟨50, _⟩ => ⟨S1x128, .f32⟩
  | .hbm, ⟨51, _⟩ => ⟨S40000x128, .f32⟩
  | .hbm, ⟨52, _⟩ => ⟨S40000x1, .i32⟩
  | .hbm, ⟨53, _⟩ => ⟨S_, .f32⟩
  | .hbm, ⟨54, _⟩ => ⟨S40000, .f32⟩
  | .hbm, ⟨55, _⟩ => ⟨S_, .f32⟩
  | .hbm, ⟨56, _⟩ => ⟨S64, .f32⟩
  | .hbm, ⟨57, _⟩ => ⟨S40000x1, .i32⟩
  | .hbm, ⟨58, _⟩ => ⟨S64, .f32⟩
  | .hbm, ⟨59, _⟩ => ⟨S64x1, .f32⟩
  | .hbm, ⟨60, _⟩ => ⟨S1x2, .f32⟩
  | .hbm, ⟨61, _⟩ => ⟨S64x2, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .i32⟩
  | .local _ .vmem, ⟨25, _⟩ => ⟨S4000x1, .i32⟩
  | .local _ .vmem, ⟨26, _⟩ => ⟨S64x1, .f32⟩
  | .local _ .vmem, ⟨27, _⟩ => ⟨S128x2, .f32⟩
  | .local _ .vmem, ⟨28, _⟩ => ⟨S1x2, .f32⟩
  | .local _ .vmem, ⟨29, _⟩ => ⟨S64x2, .f32⟩
  | .local _ .vmem, ⟨30, _⟩ => ⟨S64x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_10 : BitVec 32 := 0#32
  let v23 : BitVec 1 := Scalar.cmpi .ne v22 c0_i32_10
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S40000x128 : S_.BroadcastsInDim S40000x128 (![] : Fin 0 → Fin S40000x128.rank)
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S64 : S_.BroadcastsInDim S64 (![] : Fin 0 → Fin S64.rank)
  bcast_S40000_S40000x1_0 : S40000.BroadcastsInDim S40000x1 (![0] : Fin 1 → Fin S40000x1.rank)
  shapeCasts_S64_S64x1 : S64.ShapeCasts S64x1
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S4000x64_d1_w32 : S4000x64.Iotas .tc 32 [1]
  broadcasts_S4000x1_S4000x64 : S4000x1.Broadcasts S4000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  scatter_S64_S40000x1_S40000_n_0_0_1_wf : ScatterDims.WF S64 S40000x1 S40000 [] [0] [0] 1
  dot_S4000x64_S4000x128_S64x128_0_0_1_1_n_n_wf : DotDims.WF S4000x64 S4000x128 S64x128 [0] [0] [1] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S40000x1.size a
  hwx1_2 : ∀ i : grid1.Coords, EltTy.bits .f32 = 32 ∨ (Rect.block (s := S40000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S40000x1.size a
  hwx2_1 : ∀ i : grid2.Coords, EltTy.bits .i32 = 32 ∨ (Rect.block (s := S40000x1) S4000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .f32 = 32 ∨ (Rect.block (s := S64x2) S64x2.size (cc2_transform_5 i) (hinb2_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S64x2.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 103
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x2, .f32⟩
  | .hbm, ⟨10, _⟩ => ⟨S2, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S40000x128, .f32⟩
  | .hbm, ⟨46, _⟩ => ⟨S_, .f32⟩
  | .hbm, ⟨47, _⟩ => ⟨S40000x128, .f32⟩
  | .hbm, ⟨48, _⟩ => ⟨S40000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S40000, .f32⟩
  | .hbm, ⟨66, _⟩ => ⟨S640000x1, .i32⟩
  | .hbm, ⟨67, _⟩ => ⟨S40000, .f32⟩
  | .hbm, ⟨68, _⟩ => ⟨S_, .f32⟩
  | .hbm, ⟨69, _⟩ => ⟨S40000, .f32⟩
  | .hbm, ⟨70, _⟩ => ⟨S40000, .f32⟩
  | .hbm, ⟨71, _⟩ => ⟨S40000x1, .f32⟩
  | .hbm, ⟨72, _⟩ => ⟨S40000x128, .f32⟩
  | .hbm, ⟨73, _⟩ => ⟨S40000x128, .f32⟩
  | .hbm, ⟨74, _⟩ => ⟨S40000x128, .f32⟩
  | .hbm, ⟨75, _⟩ => ⟨S1x128, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S40000x128, .f32⟩
  | .hbm, ⟨80, _⟩ => ⟨S_, .f32⟩
  | .hbm, ⟨81, _⟩ => ⟨S40000x128, .f32⟩
  | .hbm, ⟨82, _⟩ => ⟨S40000x128, .f32⟩
  | .hbm, ⟨83, _⟩ => ⟨S_, .f32⟩
  | .hbm, ⟨84, _⟩ => ⟨S64x128, .f32⟩
  | .hbm, ⟨85, _⟩ => ⟨S40000x1, .i32⟩
  | .hbm, ⟨86, _⟩ => ⟨S64x128, .f32⟩
  | .hbm, ⟨87, _⟩ => ⟨S_, .f32⟩
  | .hbm, ⟨88, _⟩ => ⟨S40000, .f32⟩
  | .hbm, ⟨89, _⟩ => ⟨S_, .f32⟩
  | .hbm, ⟨90, _⟩ => ⟨S64, .f32⟩
  | .hbm, ⟨91, _⟩ => ⟨S40000x1, .i32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x128, .f32⟩
  | .hbm, ⟨98, _⟩ => ⟨S64x128, .f32⟩
  | .hbm, ⟨99, _⟩ => ⟨S64x2, .f32⟩
  | .hbm, ⟨100, _⟩ => ⟨S1x2, .f32⟩
  | .hbm, ⟨101, _⟩ => ⟨S64x2, .f32⟩
  | .hbm, ⟨102, _⟩ => ⟨S64x2, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x2_S64x2_1_0_0_1_n_n_wf : DotDims.WF S64x128 S128x2 S64x2 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KI.R0.lean ====
import proofs.«430213_j38500086841935_1_alg».proof.Proof.Gen.KernelIdeal.Launch
import proofs.«430213_j38500086841935_1_alg».proof.Proof.Gen.KernelIdeal.Skeleton
import proofs.«430213_j38500086841935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: `cc0__sage_dense_kernel` at the contents `V` its region is entered from.
One grid point handles a block of 4000 nodes: it loads the aggregated block, the node block, the degree
column and the three weight arrays whole, and stores one 4000 x 128 block of the layer's output. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rNF0 : Rect S4000x128 := Rect.unit (s := S4000x128) ![0, 0] S4000x128.size inb_S4000x128_S4000x128_0_0
abbrev rN10 : Rect S4000x1 := Rect.unit (s := S4000x1) ![0, 0] S4000x1.size inb_S4000x1_S4000x1_0_0
abbrev rFF0 : Rect S128x128 := Rect.unit (s := S128x128) ![0, 0] S128x128.size inb_S128x128_S128x128_0_0
abbrev r1F0 : Rect S1x128 := Rect.unit (s := S1x128) ![0, 0] S1x128.size inb_S1x128_S1x128_0_0

/-- The output block after the body, from the six input blocks: its one store as a piece. -/
def out0_6 (x0 x1 : Vec F S4000x128 .f32) (x2 : Vec F S4000x1 .f32) (x3 : Vec F S128x128 .f32) (x4 : Vec F S1x128 .f32) (x5 : Vec F S128x128 .f32) : Vec F S4000x128 .f32 :=
  View.canon [⟨rNF0, k0_pay1 (View.ld x2 rN10) (View.ld x0 rNF0) (View.ld x1 rNF0) (View.ld x3 rFF0) (View.ld x5 rFF0) (View.ld x4 r1F0)⟩]

/-- The one store covers the block. -/
theorem cover0_6 (p0 : Vec F S4000x128 .f32) (y : S4000x128.Idx) :
    ∃ pc ∈ ([⟨rNF0, p0⟩] : List (View.Piece (Elt F) S4000x128 .f32)), y ∈ pc.1.set :=
  View.cover_of_tiled [⟨rNF0, p0⟩] S4000x128.size (by rfl) y

set_option maxHeartbeats 4000000 in
/-- The body on whole staging memrefs: the inputs keep their contents, the output ends at `out0_6` of them. -/
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S4000x128 .f32) (harg7 : arg7.IsWhole)
    (x0 x1 : Vec F S4000x128 .f32) (x2 : Vec F S4000x1 .f32) (x3 : Vec F S128x128 .f32) (x4 : Vec F S1x128 .f32) (x5 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage_dense_kernel i arg1 harg1 arg2 harg2 arg3 harg3 arg4 harg4 arg5 harg5 arg6 harg6 arg7 harg7) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core `c`: the arrays as the region finds them; after the body each input's
    buffer at its block and the output's at `out0_6` of the input blocks; the plain invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.R1.lean ====
import proofs.«430213_j38500086841935_1_alg».proof.Proof.Gen.KernelIdeal.Launch
import proofs.«430213_j38500086841935_1_alg».proof.Proof.Gen.KernelIdeal.Skeleton
import proofs.«430213_j38500086841935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: `cc1__sage_dense_kernel` at the contents `V` its region is entered from.
One grid point handles a block of 4000 nodes: it loads the aggregated block, the node block, the degree
column and the three weight arrays whole, and stores one 4000 x 128 block of the layer's output. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rNF1 : Rect S4000x128 := Rect.unit (s := S4000x128) ![0, 0] S4000x128.size inb_S4000x128_S4000x128_0_0
abbrev rN11 : Rect S4000x1 := Rect.unit (s := S4000x1) ![0, 0] S4000x1.size inb_S4000x1_S4000x1_0_0
abbrev rFF1 : Rect S128x128 := Rect.unit (s := S128x128) ![0, 0] S128x128.size inb_S128x128_S128x128_0_0
abbrev r1F1 : Rect S1x128 := Rect.unit (s := S1x128) ![0, 0] S1x128.size inb_S1x128_S1x128_0_0

/-- The output block after the body, from the six input blocks: its one store as a piece. -/
def out1_6 (x0 x1 : Vec F S4000x128 .f32) (x2 : Vec F S4000x1 .f32) (x3 : Vec F S128x128 .f32) (x4 : Vec F S1x128 .f32) (x5 : Vec F S128x128 .f32) : Vec F S4000x128 .f32 :=
  View.canon [⟨rNF1, k1_pay1 (View.ld x2 rN11) (View.ld x0 rNF1) (View.ld x1 rNF1) (View.ld x3 rFF1) (View.ld x5 rFF1) (View.ld x4 r1F1)⟩]

/-- The one store covers the block. -/
theorem cover1_6 (p0 : Vec F S4000x128 .f32) (y : S4000x128.Idx) :
    ∃ pc ∈ ([⟨rNF1, p0⟩] : List (View.Piece (Elt F) S4000x128 .f32)), y ∈ pc.1.set :=
  View.cover_of_tiled [⟨rNF1, p0⟩] S4000x128.size (by rfl) y

set_option maxHeartbeats 4000000 in
/-- The body on whole staging memrefs: the inputs keep their contents, the output ends at `out1_6` of them. -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S4000x128 .f32) (harg7 : arg7.IsWhole)
    (x0 x1 : Vec F S4000x128 .f32) (x2 : Vec F S4000x1 .f32) (x3 : Vec F S128x128 .f32) (x4 : Vec F S1x128 .f32) (x5 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__sage_dense_kernel i arg1 harg1 arg2 harg2 arg3 harg3 arg4 harg4 arg5 harg5 arg6 harg6 arg7 harg7) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body each input's
    buffer at its block and the output's at `out1_6` of the input blocks; the plain invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.R2.lean ====
import proofs.«430213_j38500086841935_1_alg».proof.Proof.Gen.KernelIdeal.Launch
import proofs.«430213_j38500086841935_1_alg».proof.Proof.Gen.KernelIdeal.Skeleton
import proofs.«430213_j38500086841935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: `cc2__pool_kernel` at the contents `V` its region is entered from.
One grid point handles a block of 4000 nodes: it adds, into a 64 x 128 accumulator carried from point to point, the
product of the transposed one-hot encoding of the block's graph ids with the block's features; the first point
zero-fills the accumulator beforehand; the last point divides it by the graph sizes (at least one), multiplies by the
final weights, adds the bias and stores the 64 x 2 output, which is written back there only. -/

/-! ## The body's two branch conditions, from the grid coordinate -/

/-- The first conditional's condition: the grid coordinate is 0 (the point that zero-fills the accumulator). -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 10 = 0 :=
  (by decide +kernel : ∀ t : Fin grid2.N, cond2_0 (grid2.coords t) ↔ t.val % 10 = 0)

/-- The second conditional's condition: the grid coordinate is 9 (the point that finishes and stores the output). -/
abbrev cond2_1 (i : grid2.Coords) : Prop := k2_cond2 i = 1#1
/-- It holds at the last point only. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the second condition fails nothing is stored into the output: the window is idle there, -/
theorem idleAt2_5 : ∀ t : Fin cfg2.N, ¬cond2_1 (grid2.coords t) → cfg2.idle 5 (grid2.coords t) = true := by decide +kernel
/-- and its block is not written back. -/
theorem noFlush2_5 : ∀ t : Fin cfg2.N, ¬cond2_1 (grid2.coords t) → (cfg2.win 5).flush t = false := by decide +kernel
/-- Where it holds the output is stored: the window is live. -/
theorem liveAt2_5 : ∀ t : Fin cfg2.N, cond2_1 (grid2.coords t) → cfg2.idle 5 (grid2.coords t) = false := by decide +kernel

/-! ## The staging memrefs at a point, and the accumulator -/

/-- One staging buffer of the output window, through which its contents are stated. -/
abbrev VO2_5 : View sig .tc .vmem S64x2 .f32 := (Memref.whole cc2_stg5_0 : Memref sig .tc .vmem S64x2 .f32).view
/-- Each window's current staging memref at point `t`, and its wholeness. -/
abbrev ms2_0 (t : Fin cfg2.N) : Memref sig .tc .vmem S4000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x2 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows and carried from point to point. -/
abbrev scM2_0 : Memref sig .tc .vmem S64x128 .f32 := Memref.whole cc2_scratch0
/-- The accumulator as a view: what it holds is stated through it. -/
abbrev VS2_0 : View sig .tc .vmem S64x128 .f32 := scM2_0.view

/-- The core's scoped buffers that are no staging buffer of this call: the staging buffers of the two calls before it,
    each at some contents, and `P` in the place of the accumulator. -/
def scopedWith2 (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ P)

/-- The accumulator's part is taken out and another put back; the other calls' buffers are not looked at. -/
theorem scopedWith2_swap (c : Dev nD) (P Q : sProp 𝕄) :
    scopedWith2 (F := F) c P ⊢ iprop(P ∗ (Q -∗ scopedWith2 (F := F) c Q)) := by
  unfold scopedWith2
  iintro ⟨R1, R2, R3, R4, R5, R6, R7, R8, R9, R10, R11, R12, R13, R14, R15, R16, R17, R18, R19, R20, R21, R22, HP⟩
  isplitl [HP]; · iexact HP
  iintro HQ
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  isplitl [R22]; · iexact R22
  iexact HQ

/-- What the launch hands the region, with the accumulator as a memref owned at some contents. -/
theorem PhiA2_eq (c : Dev nD) :
    (Pipeline.ΦA spec2 c : sProp 𝕄)
      = iprop(scopedWith2 (F := F) c iprop(∃ d, owns (c : Thread nD τ) scM2_0 fullShare d) ∗ (∃ r, prngReg c r)) := by
  unfold Pipeline.ΦA scopedWith2; rw [scopedRest2_eq]; simp only [scM2_0, owns_whole]; try rfl

/-! ## The body run whole, case by case

The body's stores into the accumulator and into the output's staging buffer, as lists of pieces (last first), with the
proof that on whole memrefs — the five inputs at their contents — it runs to a continuation that holds the inputs as
they were and the stored buffers with those pieces written. -/

set_option maxHeartbeats 4000000 in
/-- The first point (first condition holds, second fails): the accumulator, at anything, is zero-filled and then takes
    this block's contribution; the output's buffer is handed back untouched. -/
noncomputable def kernelRun2_A (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : cond2_0 i) (hc1 : ¬cond2_1 i)
    (x0 : Vec F S4000x128 .f32) (x1 : Vec F S4000x1 .i32) (x2 : Vec F S64x1 .f32) (x3 : Vec F S128x2 .f32) (x4 : Vec F S1x2 .f32) :
    Σ' (L5 : List (View.Piece (Elt F) S64x2 .f32)), { LS0 : List (View.Piece (Elt F) S64x128 .f32) //
      ∀ (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- A middle point (both conditions fail): the accumulator, at what the point before left, takes this block's
    contribution; the output's buffer is handed back untouched. -/
noncomputable def kernelRun2_B (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : ¬cond2_1 i)
    (x0 : Vec F S4000x128 .f32) (x1 : Vec F S4000x1 .i32) (x2 : Vec F S64x1 .f32) (x3 : Vec F S128x2 .f32) (x4 : Vec F S1x2 .f32) (xs0 : Vec F S64x128 .f32) :
    Σ' (L5 : List (View.Piece (Elt F) S64x2 .f32)), { LS0 : List (View.Piece (Elt F) S64x128 .f32) //
      ∀ (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- The last point (first condition fails, second holds): the accumulator, at what the point before left, takes this
    block's contribution, and the output's buffer, at anything, is stored from it. -/
noncomputable def kernelRun2_C (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) :
    Σ' (L5 : List (View.Piece (Elt F) S64x2 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves: covers, and the pieces read through the skeleton's payloads -/

/-- The whole-buffer rectangles have zero offsets. -/
theorem hz2 : (![0, 0] : Fin 2 → Nat) = fun _ => 0 := funext fun a => by fin_cases a <;> rfl

/-- At the first point the accumulator's two stores (the zero fill, then the update) cover it. -/
theorem scover2_A_0 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : cond2_0 i) (hc1 : ¬cond2_1 i)
    (x0 : Vec F S4000x128 .f32) (x1 : Vec F S4000x1 .i32) (x2 : Vec F S64x1 .f32) (x3 : Vec F S128x2 .f32) (x4 : Vec F S1x2 .f32) (y : S64x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S64x128.size (by sl_kernel_rfl) y

/-- At a middle point the accumulator's one store covers it. -/
theorem scover2_B_0 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : ¬cond2_1 i)
    (x0 : Vec F S4000x128 .f32) (x1 : Vec F S4000x1 .i32) (x2 : Vec F S64x1 .f32) (x3 : Vec F S128x2 .f32) (x4 : Vec F S1x2 .f32) (xs0 : Vec F S64x128 .f32) (y : S64x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S64x128.size (by sl_kernel_rfl) y

/-- At the last point the accumulator's one store covers it, -/
theorem scover2_C_0 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) (y : S64x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S64x128.size (by sl_kernel_rfl) y

/-- and the output's one store covers its block. -/
theorem cover2_C_5 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) (y : S64x2.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S64x2.size (by sl_kernel_rfl) y

set_option maxHeartbeats 1000000 in
/-- First point: the accumulator ends at the update payload of the batch block, the feature block and the zero fill
    (the update loads back what the fill stored). -/
theorem canonS2_A (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : cond2_0 i) (hc1 : ¬cond2_1 i)
    (x0 : Vec F S4000x128 .f32) (x1 : Vec F S4000x1 .i32) (x2 : Vec F S64x1 .f32) (x3 : Vec F S128x2 .f32) (x4 : Vec F S1x2 .f32) :
    View.canon (kernelRun2_A c i arg1 harg1 arg2 harg2 arg3 harg3 arg4 harg4 arg5 harg5 arg6 harg6 arg7 harg7 hc0 hc1 x0 x1 x2 x3 x4).2.1 = k2_pay2 x1 x0 (k2_pay1 (F := F)) := by
  unfold kernelRun2_A
  dsimp only
  sl_unfold_words
  rw [View.canon_cons_unit_zero (S := S64x128) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

set_option maxHeartbeats 1000000 in
/-- Middle point: the accumulator ends at the update payload of the two blocks and what it held. -/
theorem canonS2_B (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : ¬cond2_1 i)
    (x0 : Vec F S4000x128 .f32) (x1 : Vec F S4000x1 .i32) (x2 : Vec F S64x1 .f32) (x3 : Vec F S128x2 .f32) (x4 : Vec F S1x2 .f32) (xs0 : Vec F S64x128 .f32) :
    View.canon (kernelRun2_B c i arg1 harg1 arg2 harg2 arg3 harg3 arg4 harg4 arg5 harg5 arg6 harg6 arg7 harg7 hc0 hc1 x0 x1 x2 x3 x4 xs0).2.1 = k2_pay2 x1 x0 xs0 := by
  unfold kernelRun2_B
  dsimp only
  sl_unfold_words
  rw [View.canon_unit_zero (S := S64x128) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

set_option maxHeartbeats 1000000 in
/-- Last point: the accumulator ends at the update payload of the two blocks and what it held, -/
theorem canonS2_C (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) :
    View.canon (kernelRun2_C c i arg1 harg1 arg2 harg2 arg3 harg3 arg4 harg4 arg5 harg5 arg6 harg6 arg7 harg7 hc0 hc1 x0 x1 x2 x3 x4 xs0).2.1 = k2_pay2 x1 x0 xs0 := by
  unfold kernelRun2_C
  dsimp only
  sl_unfold_words
  rw [View.canon_unit_zero (S := S64x128) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

set_option maxHeartbeats 1000000 in
/-- and the output's block at the finishing payload of that (the finish loads back what the update stored), the count
    column, the weights and the bias. -/
theorem canonO2_C (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) :
    View.canon (kernelRun2_C c i arg1 harg1 arg2 harg2 arg3 harg3 arg4 harg4 arg5 harg5 arg6 harg6 arg7 harg7 hc0 hc1 x0 x1 x2 x3 x4 xs0).1 = k2_pay3 (k2_pay2 x1 x0 xs0) x2 x3 x4 := by
  unfold kernelRun2_C
  dsimp only
  sl_unfold_words
  rw [View.canon_unit_zero (S := S64x2) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulator and the output hold after each point -/

/-- Where the output window is idle nothing reads what the proof data names for it: a placeholder. -/
def out2_idle_5 : Vec F S64x2 .f32 := VO2_5.read (Elt F) VO2_5.junk

/-- What output window 5's staging buffer (first component) and the carried scratch (second) hold after the body at position `n`:
    the accumulator starts from the zero fill at the first point and takes each point's batch block and feature block
    through the update payload; the output is the finishing payload of the accumulator at the last point. -/
def outsAt2 (c : Dev nD) : (n : ℕ) → n < cfg2.N → Vec F S64x2 .f32 × Vec F S64x128 .f32
  | 0, hn => (out2_idle_5, k2_pay2 (iblk2 V c 1 ⟨0, hn⟩) (iblk2 V c 0 ⟨0, hn⟩) (k2_pay1 (F := F)))
  | n + 1, hn =>
    if (n + 1) % 10 = 9 then
      (k2_pay3 (k2_pay2 (iblk2 V c 1 ⟨n + 1, hn⟩) (iblk2 V c 0 ⟨n + 1, hn⟩) (outsAt2 c n (Nat.lt_of_succ_lt hn)).2)
          (iblk2 V c 2 ⟨n + 1, hn⟩) (iblk2 V c 3 ⟨n + 1, hn⟩) (iblk2 V c 4 ⟨n + 1, hn⟩),
        k2_pay2 (iblk2 V c 1 ⟨n + 1, hn⟩) (iblk2 V c 0 ⟨n + 1, hn⟩) (outsAt2 c n (Nat.lt_of_succ_lt hn)).2)
    else
      (out2_idle_5, k2_pay2 (iblk2 V c 1 ⟨n + 1, hn⟩) (iblk2 V c 0 ⟨n + 1, hn⟩) (outsAt2 c n (Nat.lt_of_succ_lt hn)).2)

/-- The recursion's step, written out. -/
theorem outsAt2_succ_eq (c : Dev nD) (n : ℕ) (hn : n + 1 < cfg2.N) :
    outsAt2 V c (n + 1) hn =
      if (n + 1) % 10 = 9 then
        (k2_pay3 (k2_pay2 (iblk2 V c 1 ⟨n + 1, hn⟩) (iblk2 V c 0 ⟨n + 1, hn⟩) (outsAt2 V c n (Nat.lt_of_succ_lt hn)).2)
            (iblk2 V c 2 ⟨n + 1, hn⟩) (iblk2 V c 3 ⟨n + 1, hn⟩) (iblk2 V c 4 ⟨n + 1, hn⟩),
          k2_pay2 (iblk2 V c 1 ⟨n + 1, hn⟩) (iblk2 V c 0 ⟨n + 1, hn⟩) (outsAt2 V c n (Nat.lt_of_succ_lt hn)).2)
      else
        (out2_idle_5, k2_pay2 (iblk2 V c 1 ⟨n + 1, hn⟩) (iblk2 V c 0 ⟨n + 1, hn⟩) (outsAt2 V c n (Nat.lt_of_succ_lt hn)).2) := by
  rw [outsAt2]

/-- The accumulator after the first point. -/
theorem outsAt2_snd_zero (c : Dev nD) (t : Fin cfg2.N) (hz : t.val = 0) :
    (outsAt2 V c t.val t.isLt).2 = k2_pay2 (iblk2 V c 1 t) (iblk2 V c 0 t) (k2_pay1 (F := F)) := by
  obtain ⟨n, hn⟩ := t
  cases n with
  | zero => rfl
  | succ n => exact absurd hz (Nat.succ_ne_zero n)

/-- The accumulator after a later point, from what the point before left. -/
theorem outsAt2_snd_pos (c : Dev nD) (t : Fin cfg2.N) (hz : t.val ≠ 0) :
    (outsAt2 V c t.val t.isLt).2
      = k2_pay2 (iblk2 V c 1 t) (iblk2 V c 0 t) (outsAt2 V c (t.val - 1) (Nat.lt_of_le_of_lt (Nat.sub_le _ _) t.isLt)).2 := by
  obtain ⟨n, hn⟩ := t
  cases n with
  | zero => exact absurd rfl hz
  | succ n =>
    show (outsAt2 V c (n + 1) hn).2
      = k2_pay2 (iblk2 V c 1 ⟨n + 1, hn⟩) (iblk2 V c 0 ⟨n + 1, hn⟩) (outsAt2 V c n (Nat.lt_of_succ_lt hn)).2
    rw [outsAt2_succ_eq]; split <;> rfl

/-- The output's block after the last point, from what the point before left in the accumulator. -/
theorem outsAt2_fst_last (c : Dev nD) (t : Fin cfg2.N) (h1 : t.val % 10 = 9) :
    (outsAt2 V c t.val t.isLt).1
      = k2_pay3 (k2_pay2 (iblk2 V c 1 t) (iblk2 V c 0 t) (outsAt2 V c (t.val - 1) (Nat.lt_of_le_of_lt (Nat.sub_le _ _) t.isLt)).2)
          (iblk2 V c 2 t) (iblk2 V c 3 t) (iblk2 V c 4 t) := by
  obtain ⟨n, hn⟩ := t
  cases n with
  | zero => exact absurd (show 0 % 10 = 9 from h1) (by decide)
  | succ n =>
    show (outsAt2 V c (n + 1) hn).1
      = k2_pay3 (k2_pay2 (iblk2 V c 1 ⟨n + 1, hn⟩) (iblk2 V c 0 ⟨n + 1, hn⟩) (outsAt2 V c n (Nat.lt_of_succ_lt hn)).2)
          (iblk2 V c 2 ⟨n + 1, hn⟩) (iblk2 V c 3 ⟨n + 1, hn⟩) (iblk2 V c 4 ⟨n + 1, hn⟩)
    rw [outsAt2_succ_eq, if_pos h1]

/-- The region invariant before position `n`: before the first point what the launch hands over (the accumulator at
    anything); afterwards the same with the accumulator at what the point before left in it. -/
def PhiS2 (c : Dev nD) : (n : ℕ) → n ≤ cfg2.N → sProp 𝕄
  | 0, _ => Pipeline.ΦA spec2 c
  | n + 1, hn => iprop(scopedWith2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scopedWith2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(scopedWith2 (F := F) c (owns (c : Thread nD τ) scM2_0 fullShare ((outsAt2 V c (n - 1) (by omega)).2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the two conditions' closed forms say which case the
    point is in; the invariant hands the body the accumulator (at anything at the first point, else at what the point
    before left) and takes it back at this point's contents, which the case's pieces read to through the payloads;
    the output's buffer is handed back as found where the window is idle, and at the finishing payload at the last
    point; the other calls' buffers, the generator register and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 10 = 0
  · have h1 : ¬t.val % 10 = 9 := by omega
    have hz : t.val = 0 := by omega
    rw [Dat.leavesExact_idle (dat2 V c) 5 t (idleAt2_5 t (fun h => h1 ((hcond2_1 t).mp h))) (noFlush2_5 t (fun h => h1 ((hcond2_1 t).mp h)))]
    rw [PhiS2_castSucc V c t, PhiS2_zero V c _ _ hz, PhiA2_eq]
    iintro ⟨⟨HR, Hg⟩, Ho, ⟨%d0, H0⟩, ⟨%d1, H1⟩, ⟨%d2, H2⟩, ⟨%d3, H3⟩, ⟨%d4, H4⟩, ⟨%d5, H5⟩⟩
    icases (scopedWith2_swap (F := F) c _ (owns (c : Thread nD τ) scM2_0 fullShare ((outsAt2 V c t.val t.isLt).2))) $$ HR with ⟨HS0, Hback⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg Hback]
    · isplitl [HS0 Hback]
      · iapply Hback
        unfold owns; iexists _; isplitr
        swap; · iexact HS0
        ipureintro
        exact ((View.read_writes_eq_canon _ _ _ (scover2_A_0 c _ _ _ _ _ _ _ _ _ _ _ _ _ _ _ _ _ _ _ _ _ _)).trans (canonS2_A c _ _ _ _ _ _ _ _ _ _ _ _ _ _ _ _ _ _ _ _ _ _)).trans (outsAt2_snd_zero V c t hz).symm
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 10 = 9
    · rw [show (dat2 V c).leavesExact 5 t = owns (c : Thread nD τ) (ms2_5 t) fullShare ((dat2 V c).after 5 t) from by
        unfold Dat.leavesExact; rw [liveAt2_5 t ((hcond2_1 t).mpr h1)], after2_5]
      rw [PhiS2_castSucc V c t, PhiS2_pos V c _ _ hz]
      iintro ⟨⟨HR, Hg⟩, Ho, ⟨%d0, H0⟩, ⟨%d1, H1⟩, ⟨%d2, H2⟩, ⟨%d3, H3⟩, ⟨%d4, H4⟩, ⟨%d5, H5⟩⟩
      icases (scopedWith2_swap (F := F) c _ (owns (c : Thread nD τ) scM2_0 fullShare ((outsAt2 V c t.val t.isLt).2))) $$ HR with ⟨HS0, Hback⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hback]
      · isplitl [HS0 Hback]
        · iapply Hback
          unfold owns; iexists _; isplitr
          swap; · iexact HS0
          ipureintro
          exact ((View.read_writes_eq_canon _ _ _ (scover2_C_0 c _ _ _ _ _ _ _ _ _ _ _ _ _ _ _ _ _ _ _ _ _ _ _)).trans (canonS2_C c _ _ _ _ _ _ _ _ _ _ _ _ _ _ _ _ _ _ _ _ _ _ _)).trans (outsAt2_snd_pos V c t hz).symm
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact ((View.read_writes_eq_canon _ _ _ (cover2_C_5 c _ _ _ _ _ _ _ _ _ _ _ _ _ _ _ _ _ _ _ _ _ _ _)).trans (canonO2_C c _ _ _ _ _ _ _ _ _ _ _ _ _ _ _ _ _ _ _ _ _ _ _)).trans (outsAt2_fst_last V c t h1).symm
    · rw [Dat.leavesExact_idle (dat2 V c) 5 t (idleAt2_5 t (fun h => h1 ((hcond2_1 t).mp h))) (noFlush2_5 t (fun h => h1 ((hcond2_1 t).mp h)))]
      rw [PhiS2_castSucc V c t, PhiS2_pos V c _ _ hz]
      iintro ⟨⟨HR, Hg⟩, Ho, ⟨%d0, H0⟩, ⟨%d1, H1⟩, ⟨%d2, H2⟩, ⟨%d3, H3⟩, ⟨%d4, H4⟩, ⟨%d5, H5⟩⟩
      icases (scopedWith2_swap (F := F) c _ (owns (c : Thread nD τ) scM2_0 fullShare ((outsAt2 V c t.val t.isLt).2))) $$ HR with ⟨HS0, Hback⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hback]
      · isplitl [HS0 Hback]
        · iapply Hback
          unfold owns; iexists _; isplitr
          swap; · iexact HS0
          ipureintro
          exact ((View.read_writes_eq_canon _ _ _ (scover2_B_0 c _ _ _ _ _ _ _ _ _ _ _ _ _ _ _ _ _ _ _ _ _ _ _)).trans (canonS2_B c _ _ _ _ _ _ _ _ _ _ _ _ _ _ _ _ _ _ _ _ _ _ _)).trans (outsAt2_snd_pos V c t hz).symm
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HR, Hg⟩
  isplitl [HR]
  · icases (scopedWith2_swap (F := F) c _ iprop(∃ d, owns (c : Thread nD τ) scM2_0 fullShare d)) $$ HR with ⟨HS0, Hback⟩
    iapply Hback
    iexists _; iexact HS0
  iexact Hg

/-- After the last point the invariant gives the launch's back. -/
theorem hout2 (c : Dev nD) : (dat2 V c).Φ (Fin.last cfg2.N) ⊢ Pipeline.ΦA spec2 c :=
  Phi_out2 V c _ (by rw [Fin.val_last]; have : cfg2.N = 10 := N_2; omega)

/-! ## What the carried scratch and the output hold, through the skeleton's payloads (for the value proof) -/

/-- After the first point the scratch holds the first block's contribution added to the zero fill. -/
theorem acc2_zero (c : Dev nD) (h : 0 < cfg2.N) :
    (outsAt2 V c 0 h).2 = k2_pay2 (iblk2 V c 1 ⟨0, h⟩) (iblk2 V c 0 ⟨0, h⟩) (k2_pay1 (F := F)) :=
  outsAt2_snd_zero V c ⟨0, h⟩ rfl

/-- After a later point the scratch holds that block's contribution added to what the point before left. -/
theorem acc2_succ (c : Dev nD) (n : ℕ) (h : n + 1 < cfg2.N) :
    (outsAt2 V c (n + 1) h).2 = k2_pay2 (iblk2 V c 1 ⟨n + 1, h⟩) (iblk2 V c 0 ⟨n + 1, h⟩) (outsAt2 V c n (Nat.lt_of_succ_lt h)).2 :=
  outsAt2_snd_pos V c ⟨n + 1, h⟩ (Nat.succ_ne_zero n)

/-- At the last point the output block is the finishing payload of the scratch's final contents. -/
theorem out2_last (c : Dev nD) (h : 9 < cfg2.N) :
    (outsAt2 V c 9 h).1 = k2_pay3 (outsAt2 V c 9 h).2 (iblk2 V c 2 ⟨9, h⟩) (iblk2 V c 3 ⟨9, h⟩) (iblk2 V c 4 ⟨9, h⟩) := by
  rw [outsAt2_fst_last V c ⟨9, h⟩ rfl, outsAt2_snd_pos V c ⟨9, h⟩ (Nat.succ_ne_zero 8)]

end Region

end Cert.KernelIdeal.Hand

end
-- ==== Proof.KI.Run.lean ====
import proofs.«430213_j38500086841935_1_alg».proof.Proof.KI.R0
import proofs.«430213_j38500086841935_1_alg».proof.Proof.KI.R1
import proofs.«430213_j38500086841935_1_alg».proof.Proof.KI.R2
import proofs.«430213_j38500086841935_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: the first host stretch, layer 1 over the node tiles, the second host
stretch, layer 2 over the node tiles, the third host stretch, the pooling call.

## The buffer contents at each boundary: a fold through the program from the launch memory -/

/-- Core `c`'s buffers at launch. -/
abbrev W0 : Dev nD → Valuation τ sig (Elt F) := fun c b => (s₀ m ρ).mem ((c : Dev nD), b)
/-- After the first host stretch (layer 1's entry): the edge lists split, the in-degrees counted, the neighbour
    rows of the input gathered and summed, layer 1's bias as a row. -/
abbrev W1 : Dev nD → Valuation τ sig (Elt F) := fun c => StableHlo.after hostOps0 (W0 m ρ c)
/-- The same read at the TensorCore's references (what layer 1's proof data take). -/
abbrev V1 : (c : Dev nD) → (b : Ref sig .tc) → Buf (Elt F) ((c : Thread nD τ).loc b) := fun c b => W1 m ρ c b
/-- At layer 1's exit: its arrays at what the ten tiles leave (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (layer 1's exit contents). -/
abbrev V2 : (c : Dev nD) → (b : Ref sig .tc) → Buf (Elt F) ((c : Thread nD τ).loc b) := fun c b => W2 m ρ c b
/-- At layer 1's exit each of its arrays holds what the tiles leave, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (layer 2's entry): the neighbour rows of layer 1's output gathered and summed,
    layer 2's bias as a row. -/
abbrev W3 : Dev nD → Valuation τ sig (Elt F) := fun c => StableHlo.after hostOps1 (W2 m ρ c)
/-- The same read at the TensorCore's references (what layer 2's proof data take). -/
abbrev V3 : (c : Dev nD) → (b : Ref sig .tc) → Buf (Elt F) ((c : Thread nD τ).loc b) := fun c b => W3 m ρ c b
/-- At layer 2's exit: its arrays at what the ten tiles leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (layer 2's exit contents). -/
abbrev V4 : (c : Dev nD) → (b : Ref sig .tc) → Buf (Elt F) ((c : Thread nD τ).loc b) := fun c b => W4 m ρ c b
/-- At layer 2's exit each of its arrays holds what the tiles leave, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the pooling call's entry): the graph ids as a column, the nodes per graph
    counted, the output bias as a row. -/
abbrev W5 : Dev nD → Valuation τ sig (Elt F) := fun c => StableHlo.after hostOps2 (W4 m ρ c)
/-- The same read at the TensorCore's references (what the pooling call's proof data take). -/
abbrev V5 : (c : Dev nD) → (b : Ref sig .tc) → Buf (Elt F) ((c : Thread nD τ).loc b) := fun c b => W5 m ρ c b
/-- At the pooling call's exit: its arrays at what the ten tiles leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the pooling call's exit contents). -/
abbrev V6 : (c : Dev nD) → (b : Ref sig .tc) → Buf (Elt F) ((c : Thread nD τ).loc b) := fun c b => W6 m ρ c b
/-- At the pooling call's exit each of its arrays holds what the tiles leave, and every other buffer what it
    held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### The arguments at every boundary: no host stretch writes one, and a region reads one through an input
    window (whose array the write-backs never touch) or does not touch it at all, so the fold at an argument's
    buffer walks back to the launch memory -/

theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from (W2_arr m ρ c 1).trans (((dat0 (V1 m ρ) c).arrAt_in 1 rfl _).trans (A_eq0 (V1 m ρ) c 1))).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from W6_of_ne m ρ c main_arg0 (by decide)).trans (W5_main_arg0 m ρ c)

theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from W2_of_ne m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from W4_of_ne m ρ c main_arg1 (by decide)).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from W6_of_ne m ρ c main_arg1 (by decide)).trans (W5_main_arg1 m ρ c)

theorem W1_main_arg2 (c : Dev nD) : W1 m ρ c (Proc.devRef .tc main_arg2) = m ((c : Thread nD τ).loc main_arg2) :=
  (W1_of m ρ c main_arg2 (by decide)).trans rfl
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from W2_of_ne m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (W5_main_arg2 m ρ c)

theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from (W2_arr m ρ c 3).trans (((dat0 (V1 m ρ) c).arrAt_in 3 rfl _).trans (A_eq0 (V1 m ρ) c 3))).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_main_arg3 m ρ c)

theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_main_arg4 m ρ c)

theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from (W2_arr m ρ c 5).trans (((dat0 (V1 m ρ) c).arrAt_in 5 rfl _).trans (A_eq0 (V1 m ρ) c 5))).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_main_arg5 m ρ c)

theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from (W4_arr m ρ c 3).trans (((dat1 (V3 m ρ) c).arrAt_in 3 rfl _).trans (A_eq1 (V3 m ρ) c 3))).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_main_arg6 m ρ c)

theorem W1_main_arg7 (c : Dev nD) : W1 m ρ c (Proc.devRef .tc main_arg7) = m ((c : Thread nD τ).loc main_arg7) :=
  (W1_of m ρ c main_arg7 (by decide)).trans rfl
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from W2_of_ne m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from W6_of_ne m ρ c main_arg7 (by decide)).trans (W5_main_arg7 m ρ c)

theorem W1_main_arg8 (c : Dev nD) : W1 m ρ c (Proc.devRef .tc main_arg8) = m ((c : Thread nD τ).loc main_arg8) :=
  (W1_of m ρ c main_arg8 (by decide)).trans rfl
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from W2_of_ne m ρ c main_arg8 (by decide)).trans (W1_main_arg8 m ρ c)
theorem W3_main_arg8 (c : Dev nD) : W3 m ρ c (Proc.devRef .tc main_arg8) = m ((c : Thread nD τ).loc main_arg8) :=
  (W3_of m ρ c main_arg8 (by decide)).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from (W4_arr m ρ c 5).trans (((dat1 (V3 m ρ) c).arrAt_in 5 rfl _).trans (A_eq1 (V3 m ρ) c 5))).trans (W3_main_arg8 m ρ c)
theorem W5_main_arg8 (c : Dev nD) : W5 m ρ c (Proc.devRef .tc main_arg8) = m ((c : Thread nD τ).loc main_arg8) :=
  (W5_of m ρ c main_arg8 (by decide)).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from W6_of_ne m ρ c main_arg8 (by decide)).trans (W5_main_arg8 m ρ c)

theorem W1_main_arg9 (c : Dev nD) : W1 m ρ c (Proc.devRef .tc main_arg9) = m ((c : Thread nD τ).loc main_arg9) :=
  (W1_of m ρ c main_arg9 (by decide)).trans rfl
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from W2_of_ne m ρ c main_arg9 (by decide)).trans (W1_main_arg9 m ρ c)
theorem W3_main_arg9 (c : Dev nD) : W3 m ρ c (Proc.devRef .tc main_arg9) = m ((c : Thread nD τ).loc main_arg9) :=
  (W3_of m ρ c main_arg9 (by decide)).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (W3_main_arg9 m ρ c)
theorem W5_main_arg9 (c : Dev nD) : W5 m ρ c (Proc.devRef .tc main_arg9) = m ((c : Thread nD τ).loc main_arg9) :=
  (W5_of m ρ c main_arg9 (by decide)).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from (W6_arr m ρ c 3).trans (((dat2 (V5 m ρ) c).arrAt_in 3 rfl _).trans (A_eq2 (V5 m ρ) c 3))).trans (W5_main_arg9 m ρ c)

theorem W1_main_arg10 (c : Dev nD) : W1 m ρ c (Proc.devRef .tc main_arg10) = m ((c : Thread nD τ).loc main_arg10) :=
  (W1_of m ρ c main_arg10 (by decide)).trans rfl
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from W2_of_ne m ρ c main_arg10 (by decide)).trans (W1_main_arg10 m ρ c)
theorem W3_main_arg10 (c : Dev nD) : W3 m ρ c (Proc.devRef .tc main_arg10) = m ((c : Thread nD τ).loc main_arg10) :=
  (W3_of m ρ c main_arg10 (by decide)).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (W3_main_arg10 m ρ c)
theorem W5_main_arg10 (c : Dev nD) : W5 m ρ c (Proc.devRef .tc main_arg10) = m ((c : Thread nD τ).loc main_arg10) :=
  (W5_of m ρ c main_arg10 (by decide)).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (W5_main_arg10 m ρ c)

/-! ### The arrays one region leaves for a later one -/

/-- The pooled output is the pooling call's output array at what its ten tiles leave. -/
theorem W6_main_v40 (c : Dev nD) : W6 m ρ c (Proc.devRef .tc main_v40) = (dat2 (V5 m ρ) c).arrAt 5 cfg2.N :=
  W6_arr m ρ c 5
/-- Layer 2's output reaches the pooling call as layer 2 left it: the third host stretch does not write it. -/
theorem V5_main_v32 (c : Dev nD) : V5 m ρ c main_v32 = (dat1 (V3 m ρ) c).arrAt 6 cfg1.N :=
  (W5_of m ρ c main_v32 (by decide)).trans (W4_arr m ρ c 6)
/-- Layer 1's output reaches layer 2 as layer 1 left it: the second host stretch does not write it. -/
theorem V3_main_v20 (c : Dev nD) : V3 m ρ c main_v20 = (dat0 (V1 m ρ) c).arrAt 6 cfg0.N :=
  (W3_of m ρ c main_v20 (by decide)).trans (W2_arr m ρ c 6)
/-- The in-degree column reaches layer 2 as the first host stretch left it: layer 1 reads it through an input
    window and the second host stretch does not write it. -/
theorem V3_main_v8 (c : Dev nD) : V3 m ρ c main_v8 = V1 m ρ c main_v8 :=
  (W3_of m ρ c main_v8 (by decide)).trans
    ((W2_arr m ρ c 2).trans (((dat0 (V1 m ρ) c).arrAt_in 2 rfl _).trans (A_eq0 (V1 m ρ) c 2)))
/-- The two edge lists reach the second host stretch as the first left them: layer 1 does not touch them. -/
theorem V2_main_v1 (c : Dev nD) : V2 m ρ c main_v1 = V1 m ρ c main_v1 := W2_of_ne m ρ c main_v1 (by decide)
theorem V2_main_v3 (c : Dev nD) : V2 m ρ c main_v3 = V1 m ρ c main_v3 := W2_of_ne m ρ c main_v3 (by decide)
/-- Layer 1's output is what the second host stretch gathers from. -/
theorem V2_main_v20 (c : Dev nD) : V2 m ρ c main_v20 = (dat0 (V1 m ρ) c).arrAt 6 cfg0.N := W2_arr m ρ c 6

/-! ## The proof data of the three calls together, and what a core holds between two segments -/

/-- The three calls' proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends
    with those references at the stretch's result from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents,
    the generator register at some state. -/
abbrev Tₙ (c : Dev nD) : sProp 𝕄 := iprop(StableHlo.held (c : Thread nD τ) (Pipeline.ucRefs τ sig) (W6 m ρ c) ∗ ∃ r, prngReg c r)

/-! ## The three calls as segments -/

-- a library lemma stated over the pinned configuration unifies with the printed one only when unification may
-- unfold plain definitions in a metavariable's type
set_option backward.isDefEq.respectTransparency.types false in
/-- Layer 1 over the thread state: entered from every unscoped buffer at `W1`, left at `W2`. Its seven arrays split out of the unscoped buffers and put back at the exit contents; the generator register into the call's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Layer 2 over the thread state: entered from every unscoped buffer at `W3`, left at `W4`; the same protocol as layer 1. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The pooling call over the thread state: entered from every unscoped buffer at `W5`, left at `W6` (what the launch reads at the end). Its invariant carries the accumulator between tiles: it is entered from the plain invariant (`hin2`) and gives it back after the last tile (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine .trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and in every final state each unscoped buffer holds the last boundary's contents
    `W6`: the launch over the six segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the run, read at the eleven argument arrays, each of which ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

/-!
# What the two programs compute, as functions of whole arrays

Both programs are a two-layer GraphSAGE network followed by a mean pool over graphs and a linear head.
With `N = 40000` nodes, `F = 128` features, `G = 64` graphs:

* a layer maps the aggregated neighbour features `agg`, the node features `x` and the in-degree column `deg` to
  `relu ((agg / max deg 1) · wl + bl + x · wr)`, row by row (`sage`);
* the head sums, per graph `g`, the rows `n` whose graph word `batch n` is `g`, divides by `max (cnt g) 1`,
  multiplies by `wlin` and adds `blin` (`head`).

Everything is over the extended reals; the constants one and zero are kept as the bit patterns both programs print.
-/

noncomputable section

open scoped BigOperators

namespace Cert.Spec

open Idealize.ShloMosaic Idealize.ShloMosaic.ValueIdx

/-- The shapes: nodes x features, nodes x 1, features x features, 1 x features, graphs x features, graphs x 1,
    features x outputs, 1 x outputs, graphs x outputs. -/
abbrev SNF : Shape := ⟨2, ![40000, 128]⟩
abbrev SN1 : Shape := ⟨2, ![40000, 1]⟩
abbrev SFF : Shape := ⟨2, ![128, 128]⟩
abbrev S1F : Shape := ⟨2, ![1, 128]⟩
abbrev SGF : Shape := ⟨2, ![64, 128]⟩
abbrev SG1 : Shape := ⟨2, ![64, 1]⟩
abbrev SF2 : Shape := ⟨2, ![128, 2]⟩
abbrev S12 : Shape := ⟨2, ![1, 2]⟩
abbrev SG2 : Shape := ⟨2, ![64, 2]⟩

/-- A vector of length `n` read as an `n x 1` column and as a `1 x n` row. -/
def col {α : Type} {n : Nat} (v : (⟨1, ![n]⟩ : Shape).Idx → α) : (⟨2, ![n, 1]⟩ : Shape).Idx → α := fun i => v (ix1 (i 0))
def row {α : Type} {n : Nat} (v : (⟨1, ![n]⟩ : Shape).Idx → α) : (⟨2, ![1, n]⟩ : Shape).Idx → α := fun i => v (ix1 (i 1))

/-- The float constants one and zero as both programs spell them. -/
abbrev one : EReal := Ideal.ofBits .f32 0x3F800000#32
abbrev zero : EReal := Ideal.ofBits .f32 0x00000000#32

/-- One entry of a layer's output: row `n`, feature `f`. The neighbour mean `agg n k / max (deg n) 1` against column
    `f` of `wl`, plus the bias, plus the row of `x` against column `f` of `wr`, clipped below at zero. -/
def sageAt (agg x : SNF.Idx → EReal) (deg : SN1.Idx → EReal) (wl : SFF.Idx → EReal) (bl : S1F.Idx → EReal)
    (wr : SFF.Idx → EReal) (n : Fin 40000) (f : Fin 128) : EReal :=
  max (((∑ k : Fin 128, Ideal.div (agg (ix2 n k)) (max (deg (ix2 n (0 : Fin 1))) one) * wl (ix2 k f))
        + bl (ix2 (0 : Fin 1) f))
      + ∑ k : Fin 128, x (ix2 n k) * wr (ix2 k f)) zero

/-- A layer's whole output array. -/
def sage (agg x : SNF.Idx → EReal) (deg : SN1.Idx → EReal) (wl : SFF.Idx → EReal) (bl : S1F.Idx → EReal)
    (wr : SFF.Idx → EReal) : SNF.Idx → EReal :=
  fun i => sageAt agg x deg wl bl wr (i 0) (i 1)

theorem sage_ix2 (agg x : SNF.Idx → EReal) (deg : SN1.Idx → EReal) (wl : SFF.Idx → EReal) (bl : S1F.Idx → EReal)
    (wr : SFF.Idx → EReal) (n : Fin 40000) (f : Fin 128) :
    sage agg x deg wl bl wr (ix2 n f) = sageAt agg x deg wl bl wr n f := rfl

/-- The pooled sum of graph `g` at feature `k`: the rows whose graph word is `g`. A word outside `0 … 63` names no
    graph and its row is dropped. -/
def poolAt (h : SNF.Idx → EReal) (batch : SN1.Idx → BitVec 32) (g : Fin 64) (k : Fin 128) : EReal :=
  ∑ n : Fin 40000, if batch (ix2 n (0 : Fin 1)) = BitVec.ofNat 32 g.val then h (ix2 n k) else 0

/-- One entry of the head's output: graph `g`, output `o`. -/
def headAt (h : SNF.Idx → EReal) (batch : SN1.Idx → BitVec 32) (cnt : SG1.Idx → EReal) (wlin : SF2.Idx → EReal)
    (blin : S12.Idx → EReal) (g : Fin 64) (o : Fin 2) : EReal :=
  (∑ k : Fin 128, Ideal.div (poolAt h batch g k) (max (cnt (ix2 g (0 : Fin 1))) one) * wlin (ix2 k o))
    + blin (ix2 (0 : Fin 1) o)

/-- The head's whole output array. -/
def head (h : SNF.Idx → EReal) (batch : SN1.Idx → BitVec 32) (cnt : SG1.Idx → EReal) (wlin : SF2.Idx → EReal)
    (blin : S12.Idx → EReal) : SG2.Idx → EReal :=
  fun i => headAt h batch cnt wlin blin (i 0) (i 1)

theorem head_ix2 (h : SNF.Idx → EReal) (batch : SN1.Idx → BitVec 32) (cnt : SG1.Idx → EReal) (wlin : SF2.Idx → EReal)
    (blin : S12.Idx → EReal) (g : Fin 64) (o : Fin 2) :
    head h batch cnt wlin blin (ix2 g o) = headAt h batch cnt wlin blin g o := rfl

end Cert.Spec

end
-- ==== Proof.KI.Host.lean ====
import proofs.«430213_j38500086841935_1_alg».proof.Proof.Gen.KernelIdeal.Launch
import proofs.«430213_j38500086841935_1_alg».proof.Proof.Gen.ReferenceIdeal.Read
import proofs.«430213_j38500086841935_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

/-! # The kernel program's host stretches, read

Between its three launches the kernel's program prepares operands with the same host operations the reference uses:
the two edge lists (sources with negative words wrapped once, destinations), the gather of source rows and their
scatter-add onto destinations, the in-degree, the graph sizes, and vectors re-laid as columns or rows. Each buffer
a launch reads is stated here as the reference's own stage function of the buffers the stretch started from, so
that the two programs meet on shared terms and the scatter-adds are never opened. -/

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-! ## A vector re-laid as a column or as a row -/

/-- A length-`n` vector cast to `n x 1` is its column reading. -/
theorem shapeCast_col {α : Type} {n : ℕ} (v : (⟨1, ![n]⟩ : Shape).Idx → α)
    (h : (⟨1, ![n]⟩ : Shape).ShapeCasts ⟨2, ![n, 1]⟩) : shapeCast ⟨2, ![n, 1]⟩ v h = Cert.Spec.col v := by
  funext i
  obtain ⟨p, u, rfl⟩ : ∃ (p : Fin n) (u : Fin 1), i = ix2 p u := ⟨i 0, i 1, eq_ix2 i⟩
  refine shapeCast_apply v h _ (ix1 p) ?_
  rw [Shape.rowMajor_val_two, Shape.rowMajor_val_one]
  show p.val = p.val * 1 + u.val
  omega

/-- A length-`n` vector cast to `1 x n` is its row reading. -/
theorem shapeCast_row {α : Type} {n : ℕ} (v : (⟨1, ![n]⟩ : Shape).Idx → α)
    (h : (⟨1, ![n]⟩ : Shape).ShapeCasts ⟨2, ![1, n]⟩) : shapeCast ⟨2, ![1, n]⟩ v h = Cert.Spec.row v := by
  funext i
  obtain ⟨u, p, rfl⟩ : ∃ (u : Fin 1) (p : Fin n), i = ix2 u p := ⟨i 0, i 1, eq_ix2 i⟩
  exact shapeCast_a_1a_apply v h u p

/-! ## The two programs' dimension records are the same records -/

set_option maxHeartbeats 400000 in
theorem rec_scatterNF : Cert.KernelIdeal.scatter_S40000x128_S640000x1_S640000x128_1_0_0_1 = Cert.ReferenceIdeal.scatter_S40000x128_S640000x1_S640000x128_1_0_0_1 := rfl
set_option maxHeartbeats 400000 in
theorem rec_gather : Cert.KernelIdeal.gather_S40000x128_S640000x1_S640000x128_1_0_n_n_0_1_1128 = Cert.ReferenceIdeal.gather_S40000x128_S640000x1_S640000x128_1_0_n_n_0_1_1128 := rfl
set_option maxHeartbeats 400000 in
theorem rec_scatterN : Cert.KernelIdeal.scatter_S40000_S640000x1_S640000_n_0_0_1 = Cert.ReferenceIdeal.scatter_S40000_S640000x1_S640000_n_0_0_1 := rfl
set_option maxHeartbeats 400000 in
theorem rec_scatterG : Cert.KernelIdeal.scatter_S64_S40000x1_S40000_n_0_0_1 = Cert.ReferenceIdeal.scatter_S64_S40000x1_S40000_n_0_0_1 := rfl

variable (W : Valuation τ sig (Elt Ideal))

/-! ## Before the first launch -/

set_option maxHeartbeats 4000000 in
/-- The aggregated features: source rows gathered and summed onto their destinations. -/
theorem host0_v18 : after hostOps0 W (Proc.devRef .tc main_v18)
    = Cert.ReferenceIdeal.Read.val_main_v13 (W (Proc.devRef .tc main_arg0)) (W (Proc.devRef .tc main_arg1)) := by
  after_results_simp
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  rw [← rec_scatterNF, ← rec_gather]
  rfl

set_option maxHeartbeats 4000000 in
/-- The in-degree, as a column. -/
theorem host0_v8 : after hostOps0 W (Proc.devRef .tc main_v8)
    = Cert.Spec.col (Cert.ReferenceIdeal.Read.val_main_v17 (W (Proc.devRef .tc main_arg1))) := by
  rw [← shapeCast_col (Cert.ReferenceIdeal.Read.val_main_v17 (W (Proc.devRef .tc main_arg1))) shapeCasts_S40000_S40000x1]
  after_results_simp
  unfold Cert.ReferenceIdeal.Read.val_main_v17 Cert.ReferenceIdeal.Read.val_main_v16 Cert.ReferenceIdeal.Read.val_main_v15 Cert.ReferenceIdeal.Read.val_main_v14 Cert.ReferenceIdeal.Read.val_main_v3 Cert.ReferenceIdeal.Read.val_main_v2 Cert.ReferenceIdeal.Read.val_main_cst_1 Cert.ReferenceIdeal.Read.val_main_cst_2
  rw [← rec_scatterN]
  rfl

set_option maxHeartbeats 4000000 in
/-- The first bias, as a row. -/
theorem host0_v19 : after hostOps0 W (Proc.devRef .tc main_v19) = Cert.Spec.row (W (Proc.devRef .tc main_arg4)) := by
  rw [← shapeCast_row (W (Proc.devRef .tc main_arg4)) shapeCasts_S128_S1x128]
  after_results_simp
  rfl

set_option maxHeartbeats 4000000 in
/-- The source list (negative words wrapped once is done later, where it is used): the first row of the edge array. -/
theorem host0_v1 : after hostOps0 W (Proc.devRef .tc main_v1) = Cert.ReferenceIdeal.Read.val_main_v1 (W (Proc.devRef .tc main_arg1)) := by
  after_results_simp
  unfold Cert.ReferenceIdeal.Read.val_main_v1 Cert.ReferenceIdeal.Read.val_main_v0
  rfl

set_option maxHeartbeats 4000000 in
/-- The destination list: the second row of the edge array. -/
theorem host0_v3 : after hostOps0 W (Proc.devRef .tc main_v3) = Cert.ReferenceIdeal.Read.val_main_v3 (W (Proc.devRef .tc main_arg1)) := by
  after_results_simp
  unfold Cert.ReferenceIdeal.Read.val_main_v3 Cert.ReferenceIdeal.Read.val_main_v2
  rfl

/-! ## Between the first and the second launch -/

/-- The second aggregation as a function of the first layer's output `h` and the edge array: `h`'s source rows
    gathered and summed onto their destinations, with the reference's own operands. -/
def agg2 (h : FVec Ideal Cert.ReferenceIdeal.S40000x128 .f32)
    (x1 : (⟨Cert.ReferenceIdeal.S2x640000, .i32⟩ : BufTy).Contents (Elt Ideal)) :
    FVec Ideal Cert.ReferenceIdeal.S40000x128 .f32 :=
  Host.scatterAdd (F := Ideal) (φ := .f32) Cert.ReferenceIdeal.scatter_S40000x128_S640000x1_S640000x128_1_0_0_1 (Cert.ReferenceIdeal.Read.val_main_v37 (F := Ideal)) (Cert.ReferenceIdeal.Read.val_main_v38 x1)
    (Host.gather Cert.ReferenceIdeal.gather_S40000x128_S640000x1_S640000x128_1_0_n_n_0_1_1128 h (Cert.ReferenceIdeal.Read.val_main_v35 x1))

/-- At the reference's first-layer output this is the reference's second aggregation. -/
theorem agg2_ref (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) :
    agg2 (Cert.ReferenceIdeal.Read.val_main_v29 x0 x1 x3 x4 x5) x1 = Cert.ReferenceIdeal.Read.val_main_v39 x0 x1 x3 x4 x5 := by
  rfl

set_option maxHeartbeats 4000000 in
/-- The second aggregation the second launch reads, given that the two edge lists are still the first stretch's. -/
theorem host1_v30 (x1 : (⟨Cert.ReferenceIdeal.S2x640000, .i32⟩ : BufTy).Contents (Elt Ideal))
    (h1 : W (Proc.devRef .tc main_v1) = Cert.ReferenceIdeal.Read.val_main_v1 x1) (h3 : W (Proc.devRef .tc main_v3) = Cert.ReferenceIdeal.Read.val_main_v3 x1) :
    after hostOps1 W (Proc.devRef .tc main_v30) = agg2 (W (Proc.devRef .tc main_v20)) x1 := by
  after_results_simp
  rw [h1, h3]
  unfold agg2 Cert.ReferenceIdeal.Read.val_main_v38 Cert.ReferenceIdeal.Read.val_main_v37 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_c_4 Cert.ReferenceIdeal.Read.val_main_c_5 Cert.ReferenceIdeal.Read.val_main_cst_6
  rw [← rec_scatterNF, ← rec_gather]

set_option maxHeartbeats 4000000 in
/-- The second bias, as a row. -/
theorem host1_v31 : after hostOps1 W (Proc.devRef .tc main_v31) = Cert.Spec.row (W (Proc.devRef .tc main_arg7)) := by
  rw [← shapeCast_row (W (Proc.devRef .tc main_arg7)) shapeCasts_S128_S1x128]
  after_results_simp
  rfl

/-! ## Between the second and the third launch -/

set_option maxHeartbeats 4000000 in
/-- The graph words, as a column. -/
theorem host2_v33 : after hostOps2 W (Proc.devRef .tc main_v33) = Cert.Spec.col (W (Proc.devRef .tc main_arg2)) := by
  rw [← shapeCast_col (W (Proc.devRef .tc main_arg2)) shapeCasts_S40000_S40000x1]
  after_results_simp
  rfl

set_option maxHeartbeats 4000000 in
/-- The graph sizes, as a column. -/
theorem host2_v38 : after hostOps2 W (Proc.devRef .tc main_v38)
    = Cert.Spec.col (Cert.ReferenceIdeal.Read.val_main_v62 (W (Proc.devRef .tc main_arg2))) := by
  rw [← shapeCast_col (Cert.ReferenceIdeal.Read.val_main_v62 (W (Proc.devRef .tc main_arg2))) shapeCasts_S64_S64x1]
  after_results_simp
  unfold Cert.ReferenceIdeal.Read.val_main_v62 Cert.ReferenceIdeal.Read.val_main_v61 Cert.ReferenceIdeal.Read.val_main_v60 Cert.ReferenceIdeal.Read.val_main_v59 Cert.ReferenceIdeal.Read.val_main_cst_11 Cert.ReferenceIdeal.Read.val_main_cst_12
  rw [← rec_scatterG]
  rfl

set_option maxHeartbeats 4000000 in
/-- The head's bias, as a row. -/
theorem host2_v39 : after hostOps2 W (Proc.devRef .tc main_v39) = Cert.Spec.row (W (Proc.devRef .tc main_arg10)) := by
  rw [← shapeCast_row (W (Proc.devRef .tc main_arg10)) shapeCasts_S2_S1x2]
  after_results_simp
  rfl

end Cert.KernelIdeal.Hand

end
-- ==== Proof.KI.V0.lean ====
import proofs.«430213_j38500086841935_1_alg».proof.Proof.KI.R0
import proofs.«430213_j38500086841935_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # What region 0 leaves in its output array

Point `t` of the grid writes rows `4000 t … 4000 t + 3999` of the layer's output; the ten blocks tile the array. -/

variable (V : (c : Dev nD) → (b : Ref sig .tc) → Buf (Elt Ideal) ((c : Thread nD τ).loc b))

/-! ## The block product at an index

The product contracts the left operand's axis 1 with the right operand's axis 0: at output index `(p, q)` the operand
indices are `(p, k)` and `(k, q)`. -/

theorem dot_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dot_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at row `p` and feature `q`: the row of the left operand against the
    column of the right one. -/
theorem mm_at {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact dot_lhs_row _ _
    | ⟨1, _⟩ => exact (dot_lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (dot_rhs_row _ _).trans hk
    | ⟨1, _⟩ => exact dot_rhs_col _ _)
  rw [el, er]

/-- A column broadcast along the features reads its row's entry. -/
theorem col_at {α : Type} (x : S4000x1.Idx → α) (p : Fin 4000) (q : Fin 128) :
    broadcastTo S4000x128 x broadcasts_S4000x1_S4000x128 (ix2 p q) = x (ix2 p (0 : Fin 1)) :=
  broadcastTo_apply x broadcasts_S4000x1_S4000x128 (ix2 p q) (ix2 p (0 : Fin 1)) (fun a => by
    match a with
    | ⟨0, _⟩ => rfl
    | ⟨1, _⟩ => rfl)

/-- A row broadcast along the nodes reads its feature's entry. -/
theorem row_at {α : Type} (x : S1x128.Idx → α) (p : Fin 4000) (q : Fin 128) :
    broadcastTo S4000x128 x broadcasts_S1x128_S4000x128 (ix2 p q) = x (ix2 (0 : Fin 1) q) :=
  broadcastTo_apply x broadcasts_S1x128_S4000x128 (ix2 p q) (ix2 (0 : Fin 1) q) (fun a => by
    match a with
    | ⟨0, _⟩ => rfl
    | ⟨1, _⟩ => rfl)

/-! ## One entry of the block the body stores -/

/-- The body's stored block at row `p`, feature `q`: the layer's formula on the six loaded blocks. -/
theorem pay_at (v0 : Vec Ideal S4000x1 .f32) (v2 v8 : Vec Ideal S4000x128 .f32) (v11 v13 : Vec Ideal S128x128 .f32)
    (v16 : Vec Ideal S1x128 .f32) (p : Fin 4000) (q : Fin 128) :
    k0_pay1 v0 v2 v8 v11 v13 v16 (ix2 p q)
      = max (((∑ k : Fin 128, Ideal.div (v2 (ix2 p k)) (max (v0 (ix2 p (0 : Fin 1))) Cert.Spec.one) * v11 (ix2 k q))
            + v16 (ix2 (0 : Fin 1) q))
          + ∑ k : Fin 128, v8 (ix2 p k) * v13 (ix2 k q)) Cert.Spec.zero := by
  unfold k0_pay1
  simp only [shapeCast_self]
  refine (maximumf_apply _ _ _).trans ?_
  refine congrArg₂ max ?_ rfl
  refine (addf_apply _ _ _).trans ?_
  refine congrArg₂ (· + ·) ?_ (mm_at _ _ p q)
  refine (addf_apply _ _ _).trans ?_
  refine congrArg₂ (· + ·) ?_ (row_at _ p q)
  refine (mm_at _ _ p q).trans ?_
  refine Finset.sum_congr rfl fun k _ => ?_
  refine congrArg₂ (· * ·) ?_ rfl
  show Ideal.div (v2 (ix2 p k)) (broadcastTo S4000x128 _ broadcasts_S4000x1_S4000x128 (ix2 p k)) = _
  rw [col_at]
  rfl

/-! ## Each block as rows of its array

Point `t` reads and writes rows `4000 t … 4000 t + 3999`; the weights and the bias are read whole at every point. -/

theorem zero_off : (![0, 0] : Fin 2 → Nat) = fun _ => 0 := funext fun a => by fin_cases a <;> rfl

/-- The windows' block indices over the grid: the node blocks move with the point, the weight blocks stay at the origin. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `4000 t + p` of the array. -/
def rowOf (t : Fin cfg0.N) (p : Fin 4000) : Fin 40000 :=
  ⟨4000 * t.val + p.val, by have h : t.val < 10 := N_0 ▸ t.isLt; have := p.isLt; omega⟩

/-- The aggregated block at point `t`. -/
theorem blk_agg (c : Dev nD) (t : Fin cfg0.N) (p : Fin 4000) (k : Fin 128) :
    (iblk0 V c 0 t : Vec Ideal S4000x128 .f32) (ix2 p k) = (V c main_v18 : S40000x128.Idx → EReal) (ix2 (rowOf t p) k) := by
  obtain ⟨e0, e1, -⟩ := idx_rows t
  show V c main_v18 (((cfg0.win 0).blk t).view.emb (ix2 p k)) = _
  refine congrArg (V c main_v18) (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * k.val = k.val; omega

/-- The node-feature block at point `t`. -/
theorem blk_x (c : Dev nD) (t : Fin cfg0.N) (p : Fin 4000) (k : Fin 128) :
    (iblk0 V c 1 t : Vec Ideal S4000x128 .f32) (ix2 p k) = (V c main_arg0 : S40000x128.Idx → EReal) (ix2 (rowOf t p) k) := by
  obtain ⟨-, -, e0, e1, -⟩ := idx_rows t
  show V c main_arg0 (((cfg0.win 1).blk t).view.emb (ix2 p k)) = _
  refine congrArg (V c main_arg0) (funext fun a => Fin.ext ?_)
  match a with
  | ⟨0, _⟩ => show win0_1.index t (0 : Fin 2) * 4000 + 1 * p.val = 4000 * t.val + p.val; omega
  | ⟨1, _⟩ => show win0_1.index t (1 : Fin 2) * 128 + 1 * k.val = k.val; omega

/-- The degree block at point `t`. -/
theorem blk_deg (c : Dev nD) (t : Fin cfg0.N) (p : Fin 4000) :
    (iblk0 V c 2 t : Vec Ideal S4000x1 .f32) (ix2 p (0 : Fin 1)) = (V c main_v8 : S40000x1.Idx → EReal) (ix2 (rowOf t p) (0 : Fin 1)) := by
  obtain ⟨-, -, -, -, e0, e1, -⟩ := idx_rows t
  show V c main_v8 (((cfg0.win 2).blk t).view.emb (ix2 p (0 : Fin 1))) = _
  refine congrArg (V c main_v8) (funext fun a => Fin.ext ?_)
  match a with
  | ⟨0, _⟩ => show win0_2.index t (0 : Fin 2) * 4000 + 1 * p.val = 4000 * t.val + p.val; omega
  | ⟨1, _⟩ => show win0_2.index t (1 : Fin 2) * 1 + 1 * 0 = 0; omega

/-- The left weights, whole at every point. -/
theorem blk_wl (c : Dev nD) (t : Fin cfg0.N) (k q : Fin 128) :
    (iblk0 V c 3 t : Vec Ideal S128x128 .f32) (ix2 k q) = (V c main_arg3 : S128x128.Idx → EReal) (ix2 k q) := by
  obtain ⟨-, -, -, -, -, -, e0, e1, -⟩ := idx_rows t
  show V c main_arg3 (((cfg0.win 3).blk t).view.emb (ix2 k q)) = _
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row, whole at every point. -/
theorem blk_bl (c : Dev nD) (t : Fin cfg0.N) (q : Fin 128) :
    (iblk0 V c 4 t : Vec Ideal S1x128 .f32) (ix2 (0 : Fin 1) q) = (V c main_v19 : S1x128.Idx → EReal) (ix2 (0 : Fin 1) q) := by
  obtain ⟨-, -, -, -, -, -, -, -, e0, e1, -⟩ := idx_rows t
  show V c main_v19 (((cfg0.win 4).blk t).view.emb (ix2 (0 : Fin 1) q)) = _
  refine congrArg (V c main_v19) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The right weights, whole at every point. -/
theorem blk_wr (c : Dev nD) (t : Fin cfg0.N) (k q : Fin 128) :
    (iblk0 V c 5 t : Vec Ideal S128x128 .f32) (ix2 k q) = (V c main_arg5 : S128x128.Idx → EReal) (ix2 k q) := by
  obtain ⟨-, -, -, -, -, -, -, -, -, -, e0, e1, -⟩ := idx_rows t
  show V c main_arg5 (((cfg0.win 5).blk t).view.emb (ix2 k q)) = _
  refine congrArg (V c main_arg5) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- Where point `t`'s output block sits in the array. -/
theorem emb_out (t : Fin cfg0.N) (p : Fin 4000) (q : Fin 128) :
    (((cfg0.win 6).blk t).view.emb (ix2 p q) : S40000x128.Idx) = ix2 (rowOf t p) q := by
  obtain ⟨-, -, -, -, -, -, -, -, -, -, -, -, e0, e1⟩ := idx_rows t
  refine funext fun a => Fin.ext ?_
  match a with
  | ⟨0, _⟩ => show win0_6.index t (0 : Fin 2) * 4000 + 1 * p.val = 4000 * t.val + p.val; omega
  | ⟨1, _⟩ => show win0_6.index t (1 : Fin 2) * 128 + 1 * q.val = q.val; omega

/-! ## The write-backs tile the array -/

/-- What point `t` writes back is block `t` of the layer of the arrays the region was entered with. -/
theorem flushed_eq (c : Dev nD) (t : Fin cfg0.N) :
    (dat0 (F := Ideal) V c).flushed 6 t = ((cfg0.win 6).blk t).view.read (Elt Ideal)
      (Cert.Spec.sage (V c main_v18) (V c main_arg0) (V c main_v8) (V c main_arg3) (V c main_v19) (V c main_arg5)) := by
  show (cfg0.win 6).cut (grid0.coords t) ((dat0 (F := Ideal) V c).after 6 t) = _
  rw [after0_6]
  unfold out0_6
  rw [View.canon_unit_zero zero_off]
  simp only [View.ld_unit_zero (S := S4000x128) zero_off, View.ld_unit_zero (S := S4000x1) zero_off,
    View.ld_unit_zero (S := S128x128) zero_off, View.ld_unit_zero (S := S1x128) zero_off]
  funext j
  obtain ⟨p, q, rfl⟩ : ∃ (p : Fin 4000) (q : Fin 128), j = ix2 p q := ⟨j 0, j 1, eq_ix2 j⟩
  show k0_pay1 (iblk0 V c 2 t) (iblk0 V c 0 t) (iblk0 V c 1 t) (iblk0 V c 3 t) (iblk0 V c 5 t) (iblk0 V c 4 t) (ix2 p q)
    = Cert.Spec.sage (V c main_v18) (V c main_arg0) (V c main_v8) (V c main_arg3) (V c main_v19) (V c main_arg5)
        (((cfg0.win 6).blk t).view.emb (ix2 p q))
  rw [emb_out, Cert.Spec.sage_ix2]
  refine (pay_at _ _ _ _ _ _ p q).trans ?_
  unfold Cert.Spec.sageAt
  rw [blk_deg, blk_bl]
  simp only [blk_agg, blk_x, blk_wl, blk_wr]

/-- An index of the array is in point `t`'s block iff each coordinate is in the block's range on its axis. -/
theorem mem_blk (t : Fin cfg0.N) (i : S40000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v20).slice (win0_6.rect t)).set ↔ _
  rw [View.set_slice_whole, Rect.mem_set_unit]
  exact Iff.rfl

/-- Every index is written back: row `r` by point `r / 4000`. -/
theorem covered (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  have hN : grid0.N = 10 := N_0
  let t : Fin cfg0.N := ⟨(i 0).val / 4000, by show (i 0).val / 4000 < grid0.N; omega⟩
  obtain ⟨-, -, -, -, -, -, -, -, -, -, -, -, e0, e1⟩ := idx_rows t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the region its output array is the layer of the arrays the region was entered with. -/
theorem arr0 (c : Dev nD) :
    (dat0 (F := Ideal) V c).arrAt 6 cfg0.N
      = Cert.Spec.sage (V c main_v18) (V c main_arg0) (V c main_v8) (V c main_arg3) (V c main_v19) (V c main_arg5) :=
  (dat0 (F := Ideal) V c).arrAt_eq_of_cover 6 _ (fun t _ => flushed_eq V c t) covered

end Cert.KernelIdeal.Hand

end
-- ==== Proof.KI.V1.lean ====
import proofs.«430213_j38500086841935_1_alg».proof.Proof.KI.R1
import proofs.«430213_j38500086841935_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand.L2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # What region 1 leaves in its output array

Point `t` of the grid writes rows `4000 t … 4000 t + 3999` of the layer's output; the ten blocks tile the array. -/

variable (V : (c : Dev nD) → (b : Ref sig .tc) → Buf (Elt Ideal) ((c : Thread nD τ).loc b))

/-! ## The block product at an index

The product contracts the left operand's axis 1 with the right operand's axis 0: at output index `(p, q)` the operand
indices are `(p, k)` and `(k, q)`. -/

theorem dot_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dot_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at row `p` and feature `q`: the row of the left operand against the
    column of the right one. -/
theorem mm_at {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact dot_lhs_row _ _
    | ⟨1, _⟩ => exact (dot_lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (dot_rhs_row _ _).trans hk
    | ⟨1, _⟩ => exact dot_rhs_col _ _)
  rw [el, er]

/-- A column broadcast along the features reads its row's entry. -/
theorem col_at {α : Type} (x : S4000x1.Idx → α) (p : Fin 4000) (q : Fin 128) :
    broadcastTo S4000x128 x broadcasts_S4000x1_S4000x128 (ix2 p q) = x (ix2 p (0 : Fin 1)) :=
  broadcastTo_apply x broadcasts_S4000x1_S4000x128 (ix2 p q) (ix2 p (0 : Fin 1)) (fun a => by
    match a with
    | ⟨0, _⟩ => rfl
    | ⟨1, _⟩ => rfl)

/-- A row broadcast along the nodes reads its feature's entry. -/
theorem row_at {α : Type} (x : S1x128.Idx → α) (p : Fin 4000) (q : Fin 128) :
    broadcastTo S4000x128 x broadcasts_S1x128_S4000x128 (ix2 p q) = x (ix2 (0 : Fin 1) q) :=
  broadcastTo_apply x broadcasts_S1x128_S4000x128 (ix2 p q) (ix2 (0 : Fin 1) q) (fun a => by
    match a with
    | ⟨0, _⟩ => rfl
    | ⟨1, _⟩ => rfl)

/-! ## One entry of the block the body stores -/

/-- The body's stored block at row `p`, feature `q`: the layer's formula on the six loaded blocks. -/
theorem pay_at (v0 : Vec Ideal S4000x1 .f32) (v2 v8 : Vec Ideal S4000x128 .f32) (v11 v13 : Vec Ideal S128x128 .f32)
    (v16 : Vec Ideal S1x128 .f32) (p : Fin 4000) (q : Fin 128) :
    k1_pay1 v0 v2 v8 v11 v13 v16 (ix2 p q)
      = max (((∑ k : Fin 128, Ideal.div (v2 (ix2 p k)) (max (v0 (ix2 p (0 : Fin 1))) Cert.Spec.one) * v11 (ix2 k q))
            + v16 (ix2 (0 : Fin 1) q))
          + ∑ k : Fin 128, v8 (ix2 p k) * v13 (ix2 k q)) Cert.Spec.zero := by
  unfold k1_pay1
  simp only [shapeCast_self]
  refine (maximumf_apply _ _ _).trans ?_
  refine congrArg₂ max ?_ rfl
  refine (addf_apply _ _ _).trans ?_
  refine congrArg₂ (· + ·) ?_ (mm_at _ _ p q)
  refine (addf_apply _ _ _).trans ?_
  refine congrArg₂ (· + ·) ?_ (row_at _ p q)
  refine (mm_at _ _ p q).trans ?_
  refine Finset.sum_congr rfl fun k _ => ?_
  refine congrArg₂ (· * ·) ?_ rfl
  show Ideal.div (v2 (ix2 p k)) (broadcastTo S4000x128 _ broadcasts_S4000x1_S4000x128 (ix2 p k)) = _
  rw [col_at]
  rfl

/-! ## Each block as rows of its array

Point `t` reads and writes rows `4000 t … 4000 t + 3999`; the weights and the bias are read whole at every point. -/

theorem zero_off : (![0, 0] : Fin 2 → Nat) = fun _ => 0 := funext fun a => by fin_cases a <;> rfl

/-- The windows' block indices over the grid: the node blocks move with the point, the weight blocks stay at the origin. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `4000 t + p` of the array. -/
def rowOf (t : Fin cfg1.N) (p : Fin 4000) : Fin 40000 :=
  ⟨4000 * t.val + p.val, by have h : t.val < 10 := N_1 ▸ t.isLt; have := p.isLt; omega⟩

/-- The aggregated block at point `t`. -/
theorem blk_agg (c : Dev nD) (t : Fin cfg1.N) (p : Fin 4000) (k : Fin 128) :
    (iblk1 V c 0 t : Vec Ideal S4000x128 .f32) (ix2 p k) = (V c main_v30 : S40000x128.Idx → EReal) (ix2 (rowOf t p) k) := by
  obtain ⟨e0, e1, -⟩ := idx_rows t
  show V c main_v30 (((cfg1.win 0).blk t).view.emb (ix2 p k)) = _
  refine congrArg (V c main_v30) (funext fun a => Fin.ext ?_)
  match a with
  | ⟨0, _⟩ => show win1_0.index t (0 : Fin 2) * 4000 + 1 * p.val = 4000 * t.val + p.val; omega
  | ⟨1, _⟩ => show win1_0.index t (1 : Fin 2) * 128 + 1 * k.val = k.val; omega

/-- The node-feature block at point `t`. -/
theorem blk_x (c : Dev nD) (t : Fin cfg1.N) (p : Fin 4000) (k : Fin 128) :
    (iblk1 V c 1 t : Vec Ideal S4000x128 .f32) (ix2 p k) = (V c main_v20 : S40000x128.Idx → EReal) (ix2 (rowOf t p) k) := by
  obtain ⟨-, -, e0, e1, -⟩ := idx_rows t
  show V c main_v20 (((cfg1.win 1).blk t).view.emb (ix2 p k)) = _
  refine congrArg (V c main_v20) (funext fun a => Fin.ext ?_)
  match a with
  | ⟨0, _⟩ => show win1_1.index t (0 : Fin 2) * 4000 + 1 * p.val = 4000 * t.val + p.val; omega
  | ⟨1, _⟩ => show win1_1.index t (1 : Fin 2) * 128 + 1 * k.val = k.val; omega

/-- The degree block at point `t`. -/
theorem blk_deg (c : Dev nD) (t : Fin cfg1.N) (p : Fin 4000) :
    (iblk1 V c 2 t : Vec Ideal S4000x1 .f32) (ix2 p (0 : Fin 1)) = (V c main_v8 : S40000x1.Idx → EReal) (ix2 (rowOf t p) (0 : Fin 1)) := by
  obtain ⟨-, -, -, -, e0, e1, -⟩ := idx_rows t
  show V c main_v8 (((cfg1.win 2).blk t).view.emb (ix2 p (0 : Fin 1))) = _
  refine congrArg (V c main_v8) (funext fun a => Fin.ext ?_)
  match a with
  | ⟨0, _⟩ => show win1_2.index t (0 : Fin 2) * 4000 + 1 * p.val = 4000 * t.val + p.val; omega
  | ⟨1, _⟩ => show win1_2.index t (1 : Fin 2) * 1 + 1 * 0 = 0; omega

/-- The left weights, whole at every point. -/
theorem blk_wl (c : Dev nD) (t : Fin cfg1.N) (k q : Fin 128) :
    (iblk1 V c 3 t : Vec Ideal S128x128 .f32) (ix2 k q) = (V c main_arg6 : S128x128.Idx → EReal) (ix2 k q) := by
  obtain ⟨-, -, -, -, -, -, e0, e1, -⟩ := idx_rows t
  show V c main_arg6 (((cfg1.win 3).blk t).view.emb (ix2 k q)) = _
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row, whole at every point. -/
theorem blk_bl (c : Dev nD) (t : Fin cfg1.N) (q : Fin 128) :
    (iblk1 V c 4 t : Vec Ideal S1x128 .f32) (ix2 (0 : Fin 1) q) = (V c main_v31 : S1x128.Idx → EReal) (ix2 (0 : Fin 1) q) := by
  obtain ⟨-, -, -, -, -, -, -, -, e0, e1, -⟩ := idx_rows t
  show V c main_v31 (((cfg1.win 4).blk t).view.emb (ix2 (0 : Fin 1) q)) = _
  refine congrArg (V c main_v31) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The right weights, whole at every point. -/
theorem blk_wr (c : Dev nD) (t : Fin cfg1.N) (k q : Fin 128) :
    (iblk1 V c 5 t : Vec Ideal S128x128 .f32) (ix2 k q) = (V c main_arg8 : S128x128.Idx → EReal) (ix2 k q) := by
  obtain ⟨-, -, -, -, -, -, -, -, -, -, e0, e1, -⟩ := idx_rows t
  show V c main_arg8 (((cfg1.win 5).blk t).view.emb (ix2 k q)) = _
  refine congrArg (V c main_arg8) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- Where point `t`'s output block sits in the array. -/
theorem emb_out (t : Fin cfg1.N) (p : Fin 4000) (q : Fin 128) :
    (((cfg1.win 6).blk t).view.emb (ix2 p q) : S40000x128.Idx) = ix2 (rowOf t p) q := by
  obtain ⟨-, -, -, -, -, -, -, -, -, -, -, -, e0, e1⟩ := idx_rows t
  refine funext fun a => Fin.ext ?_
  match a with
  | ⟨0, _⟩ => show win1_6.index t (0 : Fin 2) * 4000 + 1 * p.val = 4000 * t.val + p.val; omega
  | ⟨1, _⟩ => show win1_6.index t (1 : Fin 2) * 128 + 1 * q.val = q.val; omega

/-! ## The write-backs tile the array -/

/-- What point `t` writes back is block `t` of the layer of the arrays the region was entered with. -/
theorem flushed_eq (c : Dev nD) (t : Fin cfg1.N) :
    (dat1 (F := Ideal) V c).flushed 6 t = ((cfg1.win 6).blk t).view.read (Elt Ideal)
      (Cert.Spec.sage (V c main_v30) (V c main_v20) (V c main_v8) (V c main_arg6) (V c main_v31) (V c main_arg8)) := by
  show (cfg1.win 6).cut (grid1.coords t) ((dat1 (F := Ideal) V c).after 6 t) = _
  rw [after1_6]
  unfold out1_6
  rw [View.canon_unit_zero zero_off]
  simp only [View.ld_unit_zero (S := S4000x128) zero_off, View.ld_unit_zero (S := S4000x1) zero_off,
    View.ld_unit_zero (S := S128x128) zero_off, View.ld_unit_zero (S := S1x128) zero_off]
  funext j
  obtain ⟨p, q, rfl⟩ : ∃ (p : Fin 4000) (q : Fin 128), j = ix2 p q := ⟨j 0, j 1, eq_ix2 j⟩
  show k1_pay1 (iblk1 V c 2 t) (iblk1 V c 0 t) (iblk1 V c 1 t) (iblk1 V c 3 t) (iblk1 V c 5 t) (iblk1 V c 4 t) (ix2 p q)
    = Cert.Spec.sage (V c main_v30) (V c main_v20) (V c main_v8) (V c main_arg6) (V c main_v31) (V c main_arg8)
        (((cfg1.win 6).blk t).view.emb (ix2 p q))
  rw [emb_out, Cert.Spec.sage_ix2]
  refine (pay_at _ _ _ _ _ _ p q).trans ?_
  unfold Cert.Spec.sageAt
  rw [blk_deg, blk_bl]
  simp only [blk_agg, blk_x, blk_wl, blk_wr]

/-- An index of the array is in point `t`'s block iff each coordinate is in the block's range on its axis. -/
theorem mem_blk (t : Fin cfg1.N) (i : S40000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v20).slice (win1_6.rect t)).set ↔ _
  rw [View.set_slice_whole, Rect.mem_set_unit]
  exact Iff.rfl

/-- Every index is written back: row `r` by point `r / 4000`. -/
theorem covered (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have hN : grid1.N = 10 := N_1
  let t : Fin cfg1.N := ⟨(i 0).val / 4000, by show (i 0).val / 4000 < grid1.N; omega⟩
  obtain ⟨-, -, -, -, -, -, -, -, -, -, -, -, e0, e1⟩ := idx_rows t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- After the region its output array is the layer of the arrays the region was entered with. -/
theorem arr1 (c : Dev nD) :
    (dat1 (F := Ideal) V c).arrAt 6 cfg1.N
      = Cert.Spec.sage (V c main_v30) (V c main_v20) (V c main_v8) (V c main_arg6) (V c main_v31) (V c main_arg8) :=
  (dat1 (F := Ideal) V c).arrAt_eq_of_cover 6 _ (fun t _ => flushed_eq V c t) covered

end Cert.KernelIdeal.Hand.L2

end
-- ==== Proof.KI.V2.lean ====
import proofs.«430213_j38500086841935_1_alg».proof.Proof.KI.R2
import proofs.«430213_j38500086841935_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # What region 2 leaves in its output array

The scratch accumulates, block by block, the per-graph sums of the rows; the last point turns them into the head's output. -/

/-! ## The two float constants and the three payloads, entry by entry -/

/-- The pattern of one denotes `1`. -/
theorem one_eq2 : Cert.Spec.one = 1 := by
  simp [Ideal.ofBits, Ideal.ieee, -EReal.coe_mul]; norm_num

/-- The pattern of zero denotes `0`. -/
theorem zero_eq2 : Cert.Spec.zero = 0 := Ideal.ofBits_zero_f32

/-- The fill of the scratch at the first point is zero everywhere. -/
theorem k2_pay1_apply (g : Fin 64) (k : Fin 128) : k2_pay1 (F := Ideal) (ix2 g k) = Cert.Spec.zero := by
  unfold k2_pay1
  rw [shapeCast_self]
  rfl

/-- The bit of an equality test of two words is set exactly when they are equal. -/
theorem cmpi_eq_one_iff2 {w : Nat} (a b : BitVec w) : IntOp.cmpi .eq a b = 1#1 ↔ a = b := by
  unfold IntOp.cmpi
  by_cases h : a = b
  · subst h; simp
  · have hb : (a == b) = false := by simpa using h
    rw [hb]; simpa using h

set_option maxHeartbeats 50000 in
/-- The comparison matrix of a block: entry (r, g) is one when row r's graph word is g, else zero. -/
theorem onehot2_apply (v3 : Vec Ideal S4000x1 .i32) (r : Fin 4000) (g : Fin 64) :
    (select (cmpi .eq (broadcastTo S4000x64 v3 broadcasts_S4000x1_S4000x64)
        (iota .tc S4000x64 32 [1] iota_S4000x64_d1_w32))
      (broadcast S4000x64 (Scalar.ofBits (F := Ideal) .f32 0x3F800000#32)) (broadcast S4000x64 (Scalar.ofBits (F := Ideal) .f32 0x00000000#32))) (ix2 r g)
      = if v3 (ix2 r (0 : Fin 1)) = BitVec.ofNat 32 g.val then Cert.Spec.one else Cert.Spec.zero := by
  rw [select_apply, broadcast_apply, broadcast_apply]
  show Scalar.select (IntOp.cmpi .eq _ _) _ _ = _
  rw [iota_single_apply, broadcastTo_apply v3 broadcasts_S4000x1_S4000x64 (ix2 r g) (ix2 r (0 : Fin 1)) (fun a => match a with
    | ⟨0, _⟩ => by show r.val = if (4000 : Nat) = 1 then 0 else r.val; rw [if_neg (by decide)]
    | ⟨1, _⟩ => by show 0 = if (1 : Nat) = 1 then 0 else g.val; rw [if_pos rfl])]
  show Scalar.select (IntOp.cmpi .eq (v3 (ix2 r (0 : Fin 1))) (BitVec.ofNat 32 g.val)) _ _ = _
  by_cases h : v3 (ix2 r (0 : Fin 1)) = BitVec.ofNat 32 g.val
  · rw [if_pos h, (cmpi_eq_one_iff2 _ _).mpr h, select_one]; rfl
  · rw [if_neg h, eq_zero_of_ne_one (fun hh => h ((cmpi_eq_one_iff2 _ _).mp hh)), select_zero]; rfl

/-! ### The block product of the accumulation: rows against rows -/

theorem lhs_pool_0 (i : S64x128.Idx) (q : dot_S4000x64_S4000x128_S64x128_0_0_1_1_n_n.contr.Idx) :
    (dot_S4000x64_S4000x128_S64x128_0_0_1_1_n_n.lhsIdx i q 0).val = (q ⟨0, by decide⟩).val :=
  dot_S4000x64_S4000x128_S64x128_0_0_1_1_n_n.lhsIdx_val_of_single rfl i q
theorem lhs_pool_1 (i : S64x128.Idx) (q : dot_S4000x64_S4000x128_S64x128_0_0_1_1_n_n.contr.Idx) :
    (dot_S4000x64_S4000x128_S64x128_0_0_1_1_n_n.lhsIdx i q 1).val = (i 0).val := by
  unfold DotDims.lhsIdx
  rw [dif_neg (show ¬(1 : Fin S4000x64.rank) ∈ dot_S4000x64_S4000x128_S64x128_0_0_1_1_n_n.lhsBatch by decide), dif_pos (show (1 : Fin S4000x64.rank) ∈ dot_S4000x64_S4000x128_S64x128_0_0_1_1_n_n.lhsNonContracting by decide)]
  rfl
theorem rhs_pool_0 (i : S64x128.Idx) (q : dot_S4000x64_S4000x128_S64x128_0_0_1_1_n_n.contr.Idx) :
    (dot_S4000x64_S4000x128_S64x128_0_0_1_1_n_n.rhsIdx i q 0).val = (q ⟨0, by decide⟩).val :=
  dot_S4000x64_S4000x128_S64x128_0_0_1_1_n_n.rhsIdx_val_of_single rfl i q
theorem rhs_pool_1 (i : S64x128.Idx) (q : dot_S4000x64_S4000x128_S64x128_0_0_1_1_n_n.contr.Idx) :
    (dot_S4000x64_S4000x128_S64x128_0_0_1_1_n_n.rhsIdx i q 1).val = (i 1).val := by
  unfold DotDims.rhsIdx
  rw [dif_neg (show ¬(1 : Fin S4000x128.rank) ∈ dot_S4000x64_S4000x128_S64x128_0_0_1_1_n_n.rhsBatch by decide), dif_pos (show (1 : Fin S4000x128.rank) ∈ dot_S4000x64_S4000x128_S64x128_0_0_1_1_n_n.rhsNonContracting by decide)]
  rfl

set_option maxHeartbeats 200000 in
/-- A point's update of the scratch: entry (g, k) gains the sum of the block's rows whose graph word is g, at feature k
    (each row weighted by its comparison entry, one or zero). -/
theorem k2_pay2_apply (v3 : Vec Ideal S4000x1 .i32) (v12 : Vec Ideal S4000x128 .f32) (v15 : Vec Ideal S64x128 .f32) (g : Fin 64) (k : Fin 128) :
    k2_pay2 v3 v12 v15 (ix2 g k)
      = v15 (ix2 g k) + ∑ r : Fin 4000, (if v3 (ix2 r (0 : Fin 1)) = BitVec.ofNat 32 g.val then Cert.Spec.one else Cert.Spec.zero) * v12 (ix2 r k) := by
  unfold k2_pay2
  simp only [shapeCast_self]
  rw [addf_apply]
  refine congrArg (v15 (ix2 g k) + ·) ?_
  simp only [matmul]
  rw [Ideal.matmul_constant_zero_apply, ← Equiv.sum_comp (ValueIdx.contrEquiv1 dot_S4000x64_S4000x128_S64x128_0_0_1_1_n_n 4000 rfl rfl).symm]
  refine Finset.sum_congr rfl fun r _ => ?_
  have hr := ValueIdx.contrEquiv1_symm_val dot_S4000x64_S4000x128_S64x128_0_0_1_1_n_n 4000 rfl rfl r
  have el : dot_S4000x64_S4000x128_S64x128_0_0_1_1_n_n.lhsIdx (ix2 g k) ((ValueIdx.contrEquiv1 dot_S4000x64_S4000x128_S64x128_0_0_1_1_n_n 4000 rfl rfl).symm r) = ix2 r g := funext fun a => Fin.ext (by
    match a with
    | ⟨0, _⟩ => exact (lhs_pool_0 _ _).trans hr
    | ⟨1, _⟩ => exact lhs_pool_1 _ _)
  have er : dot_S4000x64_S4000x128_S64x128_0_0_1_1_n_n.rhsIdx (ix2 g k) ((ValueIdx.contrEquiv1 dot_S4000x64_S4000x128_S64x128_0_0_1_1_n_n 4000 rfl rfl).symm r) = ix2 r k := funext fun a => Fin.ext (by
    match a with
    | ⟨0, _⟩ => exact (rhs_pool_0 _ _).trans hr
    | ⟨1, _⟩ => exact rhs_pool_1 _ _)
  rw [el, er, truncf_apply, truncf_apply, onehot2_apply]

/-! ### The head's product at the last point: the pooled means against the head's weights -/

theorem lhs_head_0 (i : S64x2.Idx) (q : dot_S64x128_S128x2_S64x2_1_0_0_1_n_n.contr.Idx) :
    (dot_S64x128_S128x2_S64x2_1_0_0_1_n_n.lhsIdx i q 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhs_head_1 (i : S64x2.Idx) (q : dot_S64x128_S128x2_S64x2_1_0_0_1_n_n.contr.Idx) :
    (dot_S64x128_S128x2_S64x2_1_0_0_1_n_n.lhsIdx i q 1).val = (q ⟨0, by decide⟩).val :=
  dot_S64x128_S128x2_S64x2_1_0_0_1_n_n.lhsIdx_val_of_single rfl i q
theorem rhs_head_0 (i : S64x2.Idx) (q : dot_S64x128_S128x2_S64x2_1_0_0_1_n_n.contr.Idx) :
    (dot_S64x128_S128x2_S64x2_1_0_0_1_n_n.rhsIdx i q 0).val = (q ⟨0, by decide⟩).val :=
  dot_S64x128_S128x2_S64x2_1_0_0_1_n_n.rhsIdx_val_of_single rfl i q
theorem rhs_head_1 (i : S64x2.Idx) (q : dot_S64x128_S128x2_S64x2_1_0_0_1_n_n.contr.Idx) :
    (dot_S64x128_S128x2_S64x2_1_0_0_1_n_n.rhsIdx i q 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

set_option maxHeartbeats 200000 in
/-- The last point's output: entry (g, o) is the scratch's row g, each entry divided by the larger of graph g's size
    and one, against column o of the weights, plus the bias at o. -/
theorem k2_pay3_apply (v24 : Vec Ideal S64x128 .f32) (v25 : Vec Ideal S64x1 .f32) (v32 : Vec Ideal S128x2 .f32) (v35 : Vec Ideal S1x2 .f32) (g : Fin 64) (o : Fin 2) :
    k2_pay3 v24 v25 v32 v35 (ix2 g o)
      = (∑ k : Fin 128, Ideal.div (v24 (ix2 g k)) (max (v25 (ix2 g (0 : Fin 1))) Cert.Spec.one) * v32 (ix2 k o)) + v35 (ix2 (0 : Fin 1) o) := by
  unfold k2_pay3
  simp only [shapeCast_self]
  rw [addf_apply, broadcastTo_apply v35 broadcasts_S1x2_S64x2 (ix2 g o) (ix2 (0 : Fin 1) o) (fun a => match a with
    | ⟨0, _⟩ => by show 0 = if (1 : Nat) = 1 then 0 else g.val; rw [if_pos rfl]
    | ⟨1, _⟩ => by show o.val = if (2 : Nat) = 1 then 0 else o.val; rw [if_neg (by decide)])]
  refine congrArg (· + v35 (ix2 (0 : Fin 1) o)) ?_
  simp only [matmul]
  rw [Ideal.matmul_constant_zero_apply, ← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 g o) ((ValueIdx.contrEquiv1 dot_S64x128_S128x2_S64x2_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S64x128_S128x2_S64x2_1_0_0_1_n_n.rhsIdx (ix2 g o) ((ValueIdx.contrEquiv1 dot_S64x128_S128x2_S64x2_1_0_0_1_n_n 128 rfl rfl).symm k) = ix2 k o := funext fun a => Fin.ext (by
    match a with
    | ⟨0, _⟩ => exact (rhs_head_0 _ _).trans hk
    | ⟨1, _⟩ => exact rhs_head_1 _ _)
  rw [el, er, truncf_apply, truncf_apply, divf_apply, broadcastTo_apply _ broadcasts_S64x1_S64x128 (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl]), maximumf_apply, broadcast_apply]
  rfl

/-! ## The blocks of the two row-blocked inputs, read off their arrays -/

/-- Row `r` of block `s` is row `4000 s + r` of the array. -/
def rowOf2 (s : Fin 10) (r : Fin 4000) : Fin 40000 := ⟨4000 * s.val + r.val, by have := s.isLt; have := r.isLt; omega⟩

/-- Both row-blocked windows sit at block (t, 0) at point t. -/
theorem idx_rows2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

set_option maxHeartbeats 200000 in
/-- The feature block at point `t`: entry (r, k) is the array's entry (4000 t + r, k). -/
theorem blk2_h (c : Dev nD) (t : Fin cfg2.N) (ht : t.val < 10) (r : Fin 4000) (k : Fin 128) :
    (iblk2 V c 0 t : Vec Ideal S4000x128 .f32) (ix2 r k) = (V c main_v32 : S40000x128.Idx → EReal) (ix2 (rowOf2 ⟨t.val, ht⟩ r) k) := by
  obtain ⟨e0, e1, -, -⟩ := idx_rows2 t
  unfold iblk2
  rw [View.read_apply]
  show (V c main_v32 : S40000x128.Idx → EReal) _ = _
  congr 1
  funext a; apply Fin.ext
  match a with
  | ⟨0, _⟩ => show win2_0.index t (0 : Fin 2) * 4000 + 1 * r.val = 4000 * t.val + r.val; rw [e0]; omega
  | ⟨1, _⟩ => show win2_0.index t (1 : Fin 2) * 128 + 1 * k.val = k.val; rw [e1]; omega

set_option maxHeartbeats 200000 in
/-- The graph-word block at point `t`: entry (r, 0) is the array's entry (4000 t + r, 0). -/
theorem blk2_w (c : Dev nD) (t : Fin cfg2.N) (ht : t.val < 10) (r : Fin 4000) :
    (iblk2 V c 1 t : Vec Ideal S4000x1 .i32) (ix2 r (0 : Fin 1)) = (V c main_v33 : S40000x1.Idx → BitVec 32) (ix2 (rowOf2 ⟨t.val, ht⟩ r) (0 : Fin 1)) := by
  obtain ⟨-, -, e0, e1⟩ := idx_rows2 t
  unfold iblk2
  rw [View.read_apply]
  show (V c main_v33 : S40000x1.Idx → BitVec 32) _ = _
  congr 1
  funext a; apply Fin.ext
  match a with
  | ⟨0, _⟩ => show win2_1.index t (0 : Fin 2) * 4000 + 1 * r.val = 4000 * t.val + r.val; rw [e0]; omega
  | ⟨1, _⟩ => show win2_1.index t (1 : Fin 2) * 1 + 1 * 0 = 0; rw [e1]

/-! ## The accumulation over the ten points -/

/-- What block `s` adds to the pooled sum of graph `g` at feature `k`: its rows whose graph word is `g` (nothing past the last block). -/
def blockSum2 (h : Cert.Spec.SNF.Idx → EReal) (batch : Cert.Spec.SN1.Idx → BitVec 32) (g : Fin 64) (k : Fin 128) (s : ℕ) : EReal :=
  if hs : s < 10 then ∑ r : Fin 4000, (if batch (ix2 (rowOf2 ⟨s, hs⟩ r) (0 : Fin 1)) = BitVec.ofNat 32 g.val then h (ix2 (rowOf2 ⟨s, hs⟩ r) k) else 0) else 0

/-- A comparison entry, one or zero, times a value keeps it or drops it. -/
theorem weight_mul2 (p : Prop) [Decidable p] (x : EReal) : (if p then Cert.Spec.one else Cert.Spec.zero) * x = if p then x else 0 := by
  split
  · rw [one_eq2, one_mul]
  · rw [zero_eq2, zero_mul]

set_option maxHeartbeats 200000 in
/-- A point's update, over the arrays: the scratch gains block `t`'s contribution. -/
theorem step2_apply (c : Dev nD) (t : Fin cfg2.N) (ht : t.val < 10) (acc : Vec Ideal S64x128 .f32) (g : Fin 64) (k : Fin 128) :
    k2_pay2 (iblk2 V c 1 t) (iblk2 V c 0 t) acc (ix2 g k) = acc (ix2 g k) + blockSum2 (V c main_v32) (V c main_v33) g k t.val := by
  refine (k2_pay2_apply (iblk2 V c 1 t) (iblk2 V c 0 t) acc g k).trans ?_
  refine congrArg (acc (ix2 g k) + ·) ?_
  unfold blockSum2
  rw [dif_pos ht]
  refine Finset.sum_congr rfl fun r _ => ?_
  rw [weight_mul2, blk2_w V c t ht r, blk2_h V c t ht r k]

set_option maxHeartbeats 200000 in
/-- After point `n` the scratch holds the contributions of the blocks up to `n`. -/
theorem acc2_eq (c : Dev nD) (g : Fin 64) (k : Fin 128) : ∀ (n : ℕ) (h : n < cfg2.N),
    (outsAt2 V c n h).2 (ix2 g k) = ∑ s ∈ Finset.range (n + 1), blockSum2 (V c main_v32) (V c main_v33) g k s
  | 0, h => by
    rw [acc2_zero V c h]
    refine (step2_apply V c ⟨0, h⟩ (by show (0 : ℕ) < 10; omega) _ g k).trans ?_
    rw [k2_pay1_apply, zero_eq2, zero_add, Finset.sum_range_one]
  | n + 1, h => by
    have hN : cfg2.N = 10 := N_2
    rw [acc2_succ V c n h]
    refine (step2_apply V c ⟨n + 1, h⟩ (by show n + 1 < 10; omega) _ g k).trans ?_
    rw [acc2_eq c g k n]
    exact (Finset.sum_range_succ (blockSum2 (V c main_v32) (V c main_v33) g k) (n + 1)).symm

set_option maxHeartbeats 400000 in
/-- The ten blocks' contributions make up the pooled sum over all rows. -/
theorem pool2_eq (h : Cert.Spec.SNF.Idx → EReal) (batch : Cert.Spec.SN1.Idx → BitVec 32) (g : Fin 64) (k : Fin 128) :
    ∑ s ∈ Finset.range 10, blockSum2 h batch g k s = Cert.Spec.poolAt h batch g k := by
  unfold Cert.Spec.poolAt
  rw [Finset.sum_range]
  have e : ∀ s : Fin 10, blockSum2 h batch g k s.val
      = ∑ r : Fin 4000, (if batch (ix2 (rowOf2 s r) (0 : Fin 1)) = BitVec.ofNat 32 g.val then h (ix2 (rowOf2 s r) k) else 0) := fun s => by
    unfold blockSum2; rw [dif_pos s.isLt]
  simp only [e]
  rw [← Fintype.sum_prod_type']
  refine Fintype.sum_equiv (finProdFinEquiv (m := 10) (n := 4000)) _
    (fun n : Fin 40000 => if batch (ix2 n (0 : Fin 1)) = BitVec.ofNat 32 g.val then h (ix2 n k) else 0) (fun p => ?_)
  have e' : rowOf2 p.1 p.2 = (finProdFinEquiv p : Fin 40000) :=
    Fin.ext (by show 4000 * p.1.val + p.2.val = p.2.val + 4000 * p.1.val; omega)
  rw [e']

/-! ## The last point's output is the head -/

/-- The three whole-array windows and the output window sit at block (0, 0) at every point. -/
theorem idx_whole2 : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

set_option maxHeartbeats 200000 in
/-- The graph sizes' block is the whole column. -/
theorem blk2_cnt (c : Dev nD) (t : Fin cfg2.N) (g : Fin 64) :
    (iblk2 V c 2 t : Vec Ideal S64x1 .f32) (ix2 g (0 : Fin 1)) = (V c main_v38 : S64x1.Idx → EReal) (ix2 g (0 : Fin 1)) := by
  obtain ⟨e0, e1, -⟩ := idx_whole2 t
  unfold iblk2
  rw [View.read_apply]
  show (V c main_v38 : S64x1.Idx → EReal) _ = _
  congr 1
  funext a; apply Fin.ext
  match a with
  | ⟨0, _⟩ => show win2_2.index t (0 : Fin 2) * 64 + 1 * g.val = g.val; rw [e0]; omega
  | ⟨1, _⟩ => show win2_2.index t (1 : Fin 2) * 1 + 1 * 0 = 0; rw [e1]

set_option maxHeartbeats 200000 in
/-- The head's weights' block is the whole matrix. -/
theorem blk2_wlin (c : Dev nD) (t : Fin cfg2.N) (k : Fin 128) (o : Fin 2) :
    (iblk2 V c 3 t : Vec Ideal S128x2 .f32) (ix2 k o) = (V c main_arg9 : S128x2.Idx → EReal) (ix2 k o) := by
  obtain ⟨-, -, e0, e1, -⟩ := idx_whole2 t
  unfold iblk2
  rw [View.read_apply]
  show (V c main_arg9 : S128x2.Idx → EReal) _ = _
  congr 1
  funext a; apply Fin.ext
  match a with
  | ⟨0, _⟩ => show win2_3.index t (0 : Fin 2) * 128 + 1 * k.val = k.val; rw [e0]; omega
  | ⟨1, _⟩ => show win2_3.index t (1 : Fin 2) * 2 + 1 * o.val = o.val; rw [e1]; omega

set_option maxHeartbeats 200000 in
/-- The bias's block is the whole row. -/
theorem blk2_blin (c : Dev nD) (t : Fin cfg2.N) (o : Fin 2) :
    (iblk2 V c 4 t : Vec Ideal S1x2 .f32) (ix2 (0 : Fin 1) o) = (V c main_v39 : S1x2.Idx → EReal) (ix2 (0 : Fin 1) o) := by
  obtain ⟨-, -, -, -, e0, e1, -⟩ := idx_whole2 t
  unfold iblk2
  rw [View.read_apply]
  show (V c main_v39 : S1x2.Idx → EReal) _ = _
  congr 1
  funext a; apply Fin.ext
  match a with
  | ⟨0, _⟩ => show win2_4.index t (0 : Fin 2) * 1 + 1 * 0 = 0; rw [e0]
  | ⟨1, _⟩ => show win2_4.index t (1 : Fin 2) * 2 + 1 * o.val = o.val; rw [e1]; omega

set_option maxHeartbeats 400000 in
/-- After the last point the output block's entry (g, o) is the head's. -/
theorem out2_head (c : Dev nD) (h9 : 9 < cfg2.N) (g : Fin 64) (o : Fin 2) :
    (outsAt2 V c 9 h9).1 (ix2 g o)
      = Cert.Spec.headAt (V c main_v32) (V c main_v33) (V c main_v38) (V c main_arg9) (V c main_v39) g o := by
  rw [out2_last V c h9]
  refine (k2_pay3_apply (outsAt2 V c 9 h9).2 (iblk2 V c 2 ⟨9, h9⟩) (iblk2 V c 3 ⟨9, h9⟩) (iblk2 V c 4 ⟨9, h9⟩) g o).trans ?_
  unfold Cert.Spec.headAt
  rw [blk2_blin V c ⟨9, h9⟩ o, blk2_cnt V c ⟨9, h9⟩ g]
  refine congrArg (· + (V c main_v39 : S1x2.Idx → EReal) (ix2 (0 : Fin 1) o)) ?_
  refine Finset.sum_congr rfl fun k _ => ?_
  rw [blk2_wlin V c ⟨9, h9⟩ k o, acc2_eq V c g k 9 h9, pool2_eq]

/-- So the output block after the last point is the head's whole array. -/
theorem out2_head_eq (c : Dev nD) (h9 : 9 < cfg2.N) :
    (outsAt2 V c 9 h9).1 = Cert.Spec.head (V c main_v32) (V c main_v33) (V c main_v38) (V c main_arg9) (V c main_v39) := by
  funext j
  obtain ⟨g, o, rfl⟩ : ∃ (g : Fin 64) (o : Fin 2), j = ix2 g o := ⟨j 0, j 1, eq_ix2 j⟩
  rw [Cert.Spec.head_ix2]
  exact out2_head V c h9 g o

/-! ## From the one write-back to the array -/

set_option maxHeartbeats 400000 in
/-- The only point that writes the output back is the last; its block is the whole array, and what it writes is the head. -/
theorem flushed2_eq (c : Dev nD) (t : Fin cfg2.N) (hf : (cfg2.win 5).flush t = true) :
    (dat2 (F := Ideal) V c).flushed 5 t
      = ((cfg2.win 5).blk t).view.read (Elt Ideal) (Cert.Spec.head (V c main_v32) (V c main_v33) (V c main_v38) (V c main_arg9) (V c main_v39)) := by
  have hN : cfg2.N = 10 := N_2
  obtain ⟨n, hn⟩ := t
  have h9 : n = 9 := by
    have h := (flush2_5 ⟨n, hn⟩).mp hf
    have h' : n % 10 = 9 := h
    omega
  subst h9
  show (cfg2.win 5).cut (grid2.coords ⟨9, hn⟩) ((dat2 (F := Ideal) V c).after 5 ⟨9, hn⟩) = _
  rw [after2_5]
  show (cfg2.win 5).cut (grid2.coords ⟨9, hn⟩) (outsAt2 V c 9 hn).1 = _
  rw [out2_head_eq V c hn]
  obtain ⟨-, -, -, -, -, -, e0, e1⟩ := idx_whole2 ⟨9, hn⟩
  have hz' : (fun a => win2_5.index ⟨9, hn⟩ a * main_v40.ty.shape.size a) = fun _ => 0 := funext fun a => by
    match a with
    | ⟨0, _⟩ => show win2_5.index ⟨9, hn⟩ (0 : Fin 2) * 64 = 0; rw [e0]
    | ⟨1, _⟩ => show win2_5.index ⟨9, hn⟩ (1 : Fin 2) * 2 = 0; rw [e1]
  exact (Memref.read_access_unit_zero (Elt Ideal) main_v40 hz' (fun a => by rw [congrFun hz' a]; simp) (Cert.Spec.head (V c main_v32) (V c main_v33) (V c main_v38) (V c main_arg9) (V c main_v39))).symm

/-- After the region its output array is the head of the arrays the region was entered with. -/
theorem arr2 (c : Dev nD) :
    (dat2 (F := Ideal) V c).arrAt 5 cfg2.N
      = Cert.Spec.head (V c main_v32) (V c main_v33) (V c main_v38) (V c main_arg9) (V c main_v39) :=
  (dat2 (F := Ideal) V c).arrAt_eq_of_cover 5 (Cert.Spec.head (V c main_v32) (V c main_v33) (V c main_v38) (V c main_arg9) (V c main_v39)) (flushed2_eq V c) fun i =>
    ⟨t2_9, (flush2_5 t2_9).mpr rfl, by
      show i ∈ ((View.whole main_v40).slice (win2_5.rect t2_9)).set
      rw [View.set_slice_whole, Rect.mem_set_unit]
      intro a
      have h0 : (i 0 : Nat) < 64 := (i 0).isLt
      have h1 : (i 1 : Nat) < 2 := (i 1).isLt
      match a with
      | ⟨0, _⟩ =>
        show win2_5.index t2_9 0 * win2_5.size 0 ≤ (i 0 : Nat) ∧ (i 0 : Nat) < win2_5.index t2_9 0 * win2_5.size 0 + win2_5.xsize (grid2.coords t2_9) 0
        rw [show win2_5.index t2_9 0 * win2_5.size 0 = 0 from by decide +kernel, show win2_5.xsize (grid2.coords t2_9) 0 = 64 from by decide +kernel]; omega
      | ⟨1, _⟩ =>
        show win2_5.index t2_9 1 * win2_5.size 1 ≤ (i 1 : Nat) ∧ (i 1 : Nat) < win2_5.index t2_9 1 * win2_5.size 1 + win2_5.xsize (grid2.coords t2_9) 1
        rw [show win2_5.index t2_9 1 * win2_5.size 1 = 0 from by decide +kernel, show win2_5.xsize (grid2.coords t2_9) 1 = 2 from by decide +kernel]; omega⟩

end Cert.KernelIdeal.Hand

end
-- ==== Proof.Ref.lean ====
import proofs.«430213_j38500086841935_1_alg».proof.Proof.Gen.ReferenceIdeal.Read
import proofs.«430213_j38500086841935_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-! # The reference's stages, read as layers

The reference's two layers and its head are the specification's functions of the stages before them: the aggregated
features (a scatter-add the kernel's program shares, kept as it is), the in-degree and the graph sizes. -/

namespace Cert.ReferenceIdeal.RefValue

open Cert.ReferenceIdeal Cert.ReferenceIdeal.Read
open Idealize.ShloMosaic Idealize.ShloMosaic.TcCoe Idealize.ShloMosaic.ValueIdx

/-- The pooling scatter's dimension numbers. -/
abbrev poolDims : ScatterDims S64x128 S40000x1 S40000x128 := scatter_S64x128_S40000x1_S40000x128_1_0_0_1

/-- On the graph axis the window of the update at row `n` starts at row `n`'s word, read signed. -/
theorem pool_start_0 (n : Fin 40000) (f : Fin 128) (idx : IVec S40000x1 32) :
    poolDims.start (ix2 n f) idx 0 = (idx (ix2 n (0 : Fin 1))).toInt := by
  unfold ScatterDims.start
  rw [dif_pos (show (0 : Fin S64x128.rank) ∈ poolDims.scatterDimsToOperandDims by decide)]
  refine congrArg (fun q => (idx q).toInt) ?_
  funext b
  apply Fin.ext
  match b with
  | ⟨0, _⟩ => rfl
  | ⟨1, _⟩ => rfl

/-- On the feature axis every window starts at zero. -/
theorem pool_start_1 (n : Fin 40000) (f : Fin 128) (idx : IVec S40000x1 32) :
    poolDims.start (ix2 n f) idx 1 = 0 := by
  unfold ScatterDims.start
  rw [dif_neg (show ¬ (1 : Fin S64x128.rank) ∈ poolDims.scatterDimsToOperandDims by decide)]

/-- The graph axis is inserted: the update has no coordinate along it. -/
theorem pool_window_0 (n : Fin 40000) (f : Fin 128) :
    poolDims.window (ix2 n f) 0 = 0 := by
  unfold ScatterDims.window
  rw [dif_neg (show ¬ (0 : Fin S64x128.rank) ∈ poolDims.sKept by decide)]

/-- Along the feature axis the update's coordinate is its own feature. -/
theorem pool_window_1 (n : Fin 40000) (f : Fin 128) :
    poolDims.window (ix2 n f) 1 = f.val := by
  unfold ScatterDims.window
  rw [dif_pos (show (1 : Fin S64x128.rank) ∈ poolDims.sKept by decide)]
  rfl

/-- A graph number below 64, as a 32-bit word, reads back signed as itself. -/
theorem toInt_ofNat_graph (g : Fin 64) : (BitVec.ofNat 32 g.val).toInt = (g.val : Int) := by
  have hg := g.isLt
  rw [BitVec.toInt_eq_toNat_cond, BitVec.toNat_ofNat]
  split <;> omega

/-- The update at row `n`, feature `f` lands at graph `g`, feature `k` exactly when row `n`'s word is `g` and `f = k`. -/
theorem pool_resultIdx (n : Fin 40000) (f : Fin 128) (idx : IVec S40000x1 32) (g : Fin 64) (k : Fin 128) :
    poolDims.resultIdx? (ix2 n f) idx = some (ix2 g k)
      ↔ idx (ix2 n (0 : Fin 1)) = BitVec.ofNat 32 g.val ∧ f = k := by
  have hg := g.isLt
  have hf := f.isLt
  have hk := k.isLt
  unfold ScatterDims.resultIdx?
  constructor
  · intro h
    split at h
    · rename_i hc
      have h' := Option.some.inj h
      have hc0 := hc 0
      have h0 : (poolDims.start (ix2 n f) idx 0 + poolDims.window (ix2 n f) 0).toNat = g.val :=
        congrArg (fun q : S64x128.Idx => (q 0).val) h'
      have h1 : (poolDims.start (ix2 n f) idx 1 + poolDims.window (ix2 n f) 1).toNat = k.val :=
        congrArg (fun q : S64x128.Idx => (q 1).val) h'
      rw [pool_start_0, pool_window_0] at hc0 h0
      rw [pool_start_1, pool_window_1] at h1
      refine ⟨BitVec.eq_of_toInt_eq ?_, Fin.ext (by omega)⟩
      rw [toInt_ofNat_graph]
      omega
    · exact absurd h (by simp)
  · rintro ⟨hw, rfl⟩
    have ht : (idx (ix2 n (0 : Fin 1))).toInt = (g.val : Int) := by rw [hw, toInt_ofNat_graph]
    rw [dif_pos (by
      intro a
      match a with
      | ⟨0, _⟩ =>
        show 0 ≤ poolDims.start (ix2 n f) idx 0 + poolDims.window (ix2 n f) 0 ∧
          poolDims.start (ix2 n f) idx 0 + poolDims.window (ix2 n f) 0 < (64 : Nat)
        rw [pool_start_0, pool_window_0, ht]; omega
      | ⟨1, _⟩ =>
        show 0 ≤ poolDims.start (ix2 n f) idx 1 + poolDims.window (ix2 n f) 1 ∧
          poolDims.start (ix2 n f) idx 1 + poolDims.window (ix2 n f) 1 < (128 : Nat)
        rw [pool_start_1, pool_window_1]; omega)]
    refine congrArg some (funext fun a => Fin.ext ?_)
    match a with
    | ⟨0, _⟩ =>
      show (poolDims.start (ix2 n f) idx 0 + poolDims.window (ix2 n f) 0).toNat = g.val
      rw [pool_start_0, pool_window_0, ht]; omega
    | ⟨1, _⟩ =>
      show (poolDims.start (ix2 n f) idx 1 + poolDims.window (ix2 n f) 1).toNat = f.val
      rw [pool_start_1, pool_window_1]; omega

/-- The accumulating scatter of the rows of `upd` by the words of `idx`, read at graph `g`, feature `k`: the operand's
    entry plus the sum of the rows whose word is `g`. -/
theorem pool_scatter_apply (x : S64x128.Idx → EReal) (idx : IVec S40000x1 32) (upd : S40000x128.Idx → EReal)
    (g : Fin 64) (k : Fin 128) :
    Ideal.hostScatterAdd poolDims x idx upd (ix2 g k)
      = x (ix2 g k) + ∑ n : Fin 40000, if idx (ix2 n (0 : Fin 1)) = BitVec.ofNat 32 g.val then upd (ix2 n k) else 0 := by
  unfold Ideal.hostScatterAdd
  refine congrArg (fun s => x (ix2 g k) + s) ?_
  rw [Finset.sum_filter, sum_idx2]
  refine Finset.sum_congr rfl fun n _ => ?_
  simp only [pool_resultIdx]
  by_cases hw : idx (ix2 n (0 : Fin 1)) = BitVec.ofNat 32 g.val
  · simp only [hw, true_and, Finset.sum_ite_eq', Finset.mem_univ, if_true]
  · simp only [hw, false_and, if_false, Finset.sum_const_zero]

variable (x0 : (⟨S40000x128, .f32⟩ : BufTy).Contents (Elt Ideal)) (x1 : (⟨S2x640000, .i32⟩ : BufTy).Contents (Elt Ideal))
  (x2 : (⟨S40000, .i32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128x2, .f32⟩ : BufTy).Contents (Elt Ideal)) (x10 : (⟨S2, .f32⟩ : BufTy).Contents (Elt Ideal))

/-- The first layer's output (after the relu) is the layer of the aggregated features, the node features and the in-degree. -/
theorem layer1 :
    val_main_v29 x0 x1 x3 x4 x5
      = Cert.Spec.sage (val_main_v13 x0 x1) x0 (Cert.Spec.col (val_main_v17 x1)) x3 (Cert.Spec.row x4) x5 := by
  funext i
  obtain ⟨n, f, rfl⟩ : ∃ (n : Fin 40000) (f : Fin 128), i = ix2 n f := ⟨i 0, i 1, eq_ix2 i⟩
  have el : ∀ k : Fin 128, lidx_main_v23 (ix2 n f) k = ix2 n k := fun k =>
    funext fun a => Fin.ext (by match a with | ⟨0, _⟩ => rfl | ⟨1, _⟩ => rfl)
  have er : ∀ k : Fin 128, ridx_main_v23 (ix2 n f) k = ix2 k f := fun k =>
    funext fun a => Fin.ext (by match a with | ⟨0, _⟩ => rfl | ⟨1, _⟩ => rfl)
  have el' : ∀ k : Fin 128, lidx_main_v27 (ix2 n f) k = ix2 n k := fun k =>
    funext fun a => Fin.ext (by match a with | ⟨0, _⟩ => rfl | ⟨1, _⟩ => rfl)
  have er' : ∀ k : Fin 128, ridx_main_v27 (ix2 n f) k = ix2 k f := fun k =>
    funext fun a => Fin.ext (by match a with | ⟨0, _⟩ => rfl | ⟨1, _⟩ => rfl)
  have ed : ∀ k : Fin 128, idx_main_v20 (idx_main_v21 (ix2 n k)) = ix1 n := fun k =>
    funext fun a => Fin.ext (by match a with | ⟨0, _⟩ => rfl)
  have eb : idx_main_v24 (idx_main_v25 (ix2 n f)) = ix1 f :=
    funext fun a => Fin.ext (by match a with | ⟨0, _⟩ => rfl)
  rw [val_main_v29_apply, val_main_v28_apply, val_main_v26_apply, val_main_v23_apply, val_main_v27_apply,
    val_main_v25_apply, val_main_v24_apply, val_main_call0_v0_apply, val_main_call0_cst_apply, Cert.Spec.sage_ix2]
  simp only [el, er, el', er', val_main_v22_apply, val_main_v21_apply, val_main_v20_apply, val_main_v19_apply,
    val_main_v18_apply, val_main_cst_3_apply, ed, eb, Ideal.maximumf_def, Ideal.addf_def, Ideal.hostDivf_def,
    Ideal.ofBits_def, Cert.Spec.sageAt, Cert.Spec.col, Cert.Spec.row]

/-- The second layer's output is the layer of the second aggregation, the first layer's output and the in-degree. -/
theorem layer2 :
    val_main_v55 x0 x1 x3 x4 x5 x6 x7 x8
      = Cert.Spec.sage (val_main_v39 x0 x1 x3 x4 x5) (val_main_v29 x0 x1 x3 x4 x5) (Cert.Spec.col (val_main_v43 x1)) x6 (Cert.Spec.row x7) x8 := by
  funext i
  obtain ⟨n, f, rfl⟩ : ∃ (n : Fin 40000) (f : Fin 128), i = ix2 n f := ⟨i 0, i 1, eq_ix2 i⟩
  have el : ∀ k : Fin 128, lidx_main_v49 (ix2 n f) k = ix2 n k := fun k =>
    funext fun a => Fin.ext (by match a with | ⟨0, _⟩ => rfl | ⟨1, _⟩ => rfl)
  have er : ∀ k : Fin 128, ridx_main_v49 (ix2 n f) k = ix2 k f := fun k =>
    funext fun a => Fin.ext (by match a with | ⟨0, _⟩ => rfl | ⟨1, _⟩ => rfl)
  have el' : ∀ k : Fin 128, lidx_main_v53 (ix2 n f) k = ix2 n k := fun k =>
    funext fun a => Fin.ext (by match a with | ⟨0, _⟩ => rfl | ⟨1, _⟩ => rfl)
  have er' : ∀ k : Fin 128, ridx_main_v53 (ix2 n f) k = ix2 k f := fun k =>
    funext fun a => Fin.ext (by match a with | ⟨0, _⟩ => rfl | ⟨1, _⟩ => rfl)
  have ed : ∀ k : Fin 128, idx_main_v46 (idx_main_v47 (ix2 n k)) = ix1 n := fun k =>
    funext fun a => Fin.ext (by match a with | ⟨0, _⟩ => rfl)
  have eb : idx_main_v50 (idx_main_v51 (ix2 n f)) = ix1 f :=
    funext fun a => Fin.ext (by match a with | ⟨0, _⟩ => rfl)
  rw [val_main_v55_apply, val_main_v54_apply, val_main_v52_apply, val_main_v49_apply, val_main_v53_apply,
    val_main_v51_apply, val_main_v50_apply, val_main_call1_v0_apply, val_main_call1_cst_apply, Cert.Spec.sage_ix2]
  simp only [el, er, el', er', val_main_v48_apply, val_main_v47_apply, val_main_v46_apply, val_main_v45_apply,
    val_main_v44_apply, val_main_cst_9_apply, ed, eb, Ideal.maximumf_def, Ideal.addf_def, Ideal.hostDivf_def,
    Ideal.ofBits_def, Cert.Spec.sageAt, Cert.Spec.col, Cert.Spec.row]

/-- The pooled stage at graph `g`, feature `k` is the specification's pooled sum of the second layer's output by the
    graph words. -/
theorem pooled (g : Fin 64) (k : Fin 128) :
    val_main_v58 x0 x1 x2 x3 x4 x5 x6 x7 x8 (ix2 g k)
      = Cert.Spec.poolAt (val_main_v55 x0 x1 x3 x4 x5 x6 x7 x8) (Cert.Spec.col x2) g k := by
  have ew : ∀ n : Fin 40000, idx_main_v57 (ix2 n (0 : Fin 1)) = ix1 n := fun n =>
    funext fun a => Fin.ext (by match a with | ⟨0, _⟩ => rfl)
  unfold val_main_v58 Host.scatterAdd
  rw [Ideal.hostScatterAdd_def, pool_scatter_apply, val_main_v56_apply, val_main_cst_10_apply, Ideal.ofBits_def,
    Ideal.ofBits_zero_f32, zero_add]
  unfold Cert.Spec.poolAt
  simp only [val_main_v57_apply, ew, Cert.Spec.col]
  rfl

/-- The result is the head of the second layer's output, the graph words and the graph sizes. -/
theorem result :
    val_main_v71 x0 x1 x2 x3 x4 x5 x6 x7 x8 x9 x10
      = Cert.Spec.head (val_main_v55 x0 x1 x3 x4 x5 x6 x7 x8) (Cert.Spec.col x2) (Cert.Spec.col (val_main_v62 x2)) x9 (Cert.Spec.row x10) := by
  funext i
  obtain ⟨g, o, rfl⟩ : ∃ (g : Fin 64) (o : Fin 2), i = ix2 g o := ⟨i 0, i 1, eq_ix2 i⟩
  have el : ∀ k : Fin 128, lidx_main_v68 (ix2 g o) k = ix2 g k := fun k =>
    funext fun a => Fin.ext (by match a with | ⟨0, _⟩ => rfl | ⟨1, _⟩ => rfl)
  have er : ∀ k : Fin 128, ridx_main_v68 (ix2 g o) k = ix2 k o := fun k =>
    funext fun a => Fin.ext (by match a with | ⟨0, _⟩ => rfl | ⟨1, _⟩ => rfl)
  have ed : ∀ k : Fin 128, idx_main_v65 (idx_main_v66 (ix2 g k)) = ix1 g := fun k =>
    funext fun a => Fin.ext (by match a with | ⟨0, _⟩ => rfl)
  have eb : idx_main_v69 (idx_main_v70 (ix2 g o)) = ix1 o :=
    funext fun a => Fin.ext (by match a with | ⟨0, _⟩ => rfl)
  rw [val_main_v71_apply, val_main_v68_apply, val_main_v70_apply, val_main_v69_apply, Cert.Spec.head_ix2]
  simp only [el, er, val_main_v67_apply, pooled, val_main_v66_apply, val_main_v65_apply, val_main_v64_apply,
    val_main_v63_apply, val_main_cst_13_apply, ed, eb, Ideal.addf_def, Ideal.maximumf_def, Ideal.hostDivf_def,
    Ideal.ofBits_def, Cert.Spec.headAt, Cert.Spec.col, Cert.Spec.row]

end Cert.ReferenceIdeal.RefValue

end
-- ==== Proof.KI.Bridge.lean ====
import proofs.«430213_j38500086841935_1_alg».proof.Proof.KI.Run
import proofs.«430213_j38500086841935_1_alg».proof.Proof.KI.Host
import proofs.«430213_j38500086841935_1_alg».proof.Proof.KI.V0
import proofs.«430213_j38500086841935_1_alg».proof.Proof.KI.V1
import proofs.«430213_j38500086841935_1_alg».proof.Proof.KI.V2
import proofs.«430213_j38500086841935_1_alg».proof.Proof.Ref

set_option maxRecDepth 16384

noncomputable section

/-! # The kernel program's result is the reference's result of the launch arguments

The program's last boundary holds, in the pooled output's buffer, what the pooling call leaves. Walking the boundaries
back: each call leaves the specification's layer (or head) of the buffers it was entered with; each of those buffers
is either an argument as launched, a host stretch's stage of arguments, or the call before's output. Stage by stage
these are the reference's own stages of the same arguments, so the last one is the reference's result. -/

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## What layer 1 is entered with -/

/-- The aggregated input features: the reference's first aggregation of the node features and the edge array. -/
theorem in0_v18 (c : Dev nD) : V1 m ρ c main_v18 = Cert.ReferenceIdeal.Read.val_main_v13 (m ((c : Thread nD τ).loc main_arg0)) (m ((c : Thread nD τ).loc main_arg1)) :=
  host0_v18 (W0 m ρ c)
/-- The node features as launched. -/
theorem in0_arg0 (c : Dev nD) : V1 m ρ c main_arg0 = (m ((c : Thread nD τ).loc main_arg0)) := W1_main_arg0 m ρ c
/-- The in-degree column: the reference's in-degree of the edge array. -/
theorem in0_v8 (c : Dev nD) : V1 m ρ c main_v8 = Cert.Spec.col (Cert.ReferenceIdeal.Read.val_main_v17 (m ((c : Thread nD τ).loc main_arg1))) :=
  host0_v8 (W0 m ρ c)
/-- Layer 1's neighbour weights as launched. -/
theorem in0_arg3 (c : Dev nD) : V1 m ρ c main_arg3 = (m ((c : Thread nD τ).loc main_arg3)) := W1_main_arg3 m ρ c
/-- Layer 1's bias as a row. -/
theorem in0_v19 (c : Dev nD) : V1 m ρ c main_v19 = Cert.Spec.row (m ((c : Thread nD τ).loc main_arg4)) :=
  host0_v19 (W0 m ρ c)
/-- Layer 1's self weights as launched. -/
theorem in0_arg5 (c : Dev nD) : V1 m ρ c main_arg5 = (m ((c : Thread nD τ).loc main_arg5)) := W1_main_arg5 m ρ c

/-! ## Layer 1's output is the reference's first layer -/

theorem out0_ref (c : Dev nD) :
    (dat0 (V1 m ρ) c).arrAt 6 cfg0.N = Cert.ReferenceIdeal.Read.val_main_v29 (m ((c : Thread nD τ).loc main_arg0)) (m ((c : Thread nD τ).loc main_arg1)) (m ((c : Thread nD τ).loc main_arg3)) (m ((c : Thread nD τ).loc main_arg4)) (m ((c : Thread nD τ).loc main_arg5)) := by
  rw [arr0, in0_v18, in0_arg0, in0_v8, in0_arg3, in0_v19, in0_arg5]
  exact (Cert.ReferenceIdeal.RefValue.layer1 _ _ _ _ _).symm

/-! ## What layer 2 is entered with -/

/-- The source list is still the first stretch's when the second stretch starts: layer 1 does not touch it. -/
theorem edges_v1 (c : Dev nD) : W2 m ρ c (Proc.devRef .tc main_v1) = Cert.ReferenceIdeal.Read.val_main_v1 (m ((c : Thread nD τ).loc main_arg1)) :=
  (V2_main_v1 m ρ c).trans (host0_v1 (W0 m ρ c))
/-- So is the destination list. -/
theorem edges_v3 (c : Dev nD) : W2 m ρ c (Proc.devRef .tc main_v3) = Cert.ReferenceIdeal.Read.val_main_v3 (m ((c : Thread nD τ).loc main_arg1)) :=
  (V2_main_v3 m ρ c).trans (host0_v3 (W0 m ρ c))
/-- The second stretch gathers from the reference's first layer. -/
theorem mid_v20 (c : Dev nD) : W2 m ρ c (Proc.devRef .tc main_v20) = Cert.ReferenceIdeal.Read.val_main_v29 (m ((c : Thread nD τ).loc main_arg0)) (m ((c : Thread nD τ).loc main_arg1)) (m ((c : Thread nD τ).loc main_arg3)) (m ((c : Thread nD τ).loc main_arg4)) (m ((c : Thread nD τ).loc main_arg5)) :=
  (V2_main_v20 m ρ c).trans (out0_ref m ρ c)

/-- The aggregated hidden features: the reference's second aggregation. -/
theorem in1_v30 (c : Dev nD) : V3 m ρ c main_v30 = Cert.ReferenceIdeal.Read.val_main_v39 (m ((c : Thread nD τ).loc main_arg0)) (m ((c : Thread nD τ).loc main_arg1)) (m ((c : Thread nD τ).loc main_arg3)) (m ((c : Thread nD τ).loc main_arg4)) (m ((c : Thread nD τ).loc main_arg5)) := by
  show after hostOps1 (W2 m ρ c) (Proc.devRef .tc main_v30) = _
  rw [host1_v30 (W2 m ρ c) (m ((c : Thread nD τ).loc main_arg1)) (edges_v1 m ρ c) (edges_v3 m ρ c), mid_v20, agg2_ref]
/-- The hidden features: the reference's first layer. -/
theorem in1_v20 (c : Dev nD) : V3 m ρ c main_v20 = Cert.ReferenceIdeal.Read.val_main_v29 (m ((c : Thread nD τ).loc main_arg0)) (m ((c : Thread nD τ).loc main_arg1)) (m ((c : Thread nD τ).loc main_arg3)) (m ((c : Thread nD τ).loc main_arg4)) (m ((c : Thread nD τ).loc main_arg5)) :=
  (V3_main_v20 m ρ c).trans (out0_ref m ρ c)
/-- The reference counts the in-degree a second time for its second layer: the same sum. -/
theorem indeg_again (x1 : (⟨Cert.ReferenceIdeal.S2x640000, .i32⟩ : BufTy).Contents (Elt Ideal)) :
    Cert.ReferenceIdeal.Read.val_main_v43 x1 = Cert.ReferenceIdeal.Read.val_main_v17 x1 := rfl
/-- The in-degree column, as the reference's second count. -/
theorem in1_v8 (c : Dev nD) : V3 m ρ c main_v8 = Cert.Spec.col (Cert.ReferenceIdeal.Read.val_main_v43 (m ((c : Thread nD τ).loc main_arg1))) := by
  rw [V3_main_v8, in0_v8, indeg_again]
/-- Layer 2's neighbour weights as launched. -/
theorem in1_arg6 (c : Dev nD) : V3 m ρ c main_arg6 = (m ((c : Thread nD τ).loc main_arg6)) := W3_main_arg6 m ρ c
/-- Layer 2's bias as a row. -/
theorem in1_v31 (c : Dev nD) : V3 m ρ c main_v31 = Cert.Spec.row (m ((c : Thread nD τ).loc main_arg7)) := by
  show after hostOps1 (W2 m ρ c) (Proc.devRef .tc main_v31) = _
  rw [host1_v31, W2_main_arg7]
/-- Layer 2's self weights as launched. -/
theorem in1_arg8 (c : Dev nD) : V3 m ρ c main_arg8 = (m ((c : Thread nD τ).loc main_arg8)) := W3_main_arg8 m ρ c

/-! ## Layer 2's output is the reference's second layer -/

theorem out1_ref (c : Dev nD) :
    (dat1 (V3 m ρ) c).arrAt 6 cfg1.N = Cert.ReferenceIdeal.Read.val_main_v55 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [L2.arr1, in1_v30, in1_v20, in1_v8, in1_arg6, in1_v31, in1_arg8]
  exact (Cert.ReferenceIdeal.RefValue.layer2 _ _ _ _ _ _ _ _).symm

/-! ## What the pooling call is entered with -/

/-- The node embeddings: the reference's second layer. -/
theorem in2_v32 (c : Dev nD) : V5 m ρ c main_v32 = Cert.ReferenceIdeal.Read.val_main_v55 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (V5_main_v32 m ρ c).trans (out1_ref m ρ c)
/-- The graph words as a column. -/
theorem in2_v33 (c : Dev nD) : V5 m ρ c main_v33 = Cert.Spec.col (m ((c : Thread nD τ).loc main_arg2)) := by
  show after hostOps2 (W4 m ρ c) (Proc.devRef .tc main_v33) = _
  rw [host2_v33, W4_main_arg2]
/-- The graph sizes as a column: the reference's count of the graph words. -/
theorem in2_v38 (c : Dev nD) : V5 m ρ c main_v38 = Cert.Spec.col (Cert.ReferenceIdeal.Read.val_main_v62 (m ((c : Thread nD τ).loc main_arg2))) := by
  show after hostOps2 (W4 m ρ c) (Proc.devRef .tc main_v38) = _
  rw [host2_v38, W4_main_arg2]
/-- The head's weights as launched. -/
theorem in2_arg9 (c : Dev nD) : V5 m ρ c main_arg9 = (m ((c : Thread nD τ).loc main_arg9)) := W5_main_arg9 m ρ c
/-- The head's bias as a row. -/
theorem in2_v39 (c : Dev nD) : V5 m ρ c main_v39 = Cert.Spec.row (m ((c : Thread nD τ).loc main_arg10)) := by
  show after hostOps2 (W4 m ρ c) (Proc.devRef .tc main_v39) = _
  rw [host2_v39, W4_main_arg10]

/-! ## The result -/

/-- At the program's end the pooled output's buffer holds the reference's result of the eleven arguments as launched. -/
theorem kernel_value (c : Dev nD) :
    W6 m ρ c (Proc.devRef .tc main_v40) = Cert.ReferenceIdeal.Read.val_main_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W6_main_v40, arr2, in2_v32, in2_v33, in2_v38, in2_arg9, in2_v39]
  exact (Cert.ReferenceIdeal.RefValue.result _ _ _ _ _ _ _ _ _ _ _).symm

end Cert.KernelIdeal.Hand

end
-- ==== Proof.K.R0.lean ====
import proofs.«430213_j38500086841935_1_alg».proof.Proof.Gen.Kernel.Launch
import proofs.«430213_j38500086841935_1_alg».proof.Proof.Gen.Kernel.Skeleton
import proofs.«430213_j38500086841935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: `cc0__sage_dense_kernel` at the contents `V` its region is entered from.
One grid point handles a block of 4000 nodes: it loads the aggregated block, the node block, the degree
column and the three weight arrays whole, and stores one 4000 x 128 block of the layer's output. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rNF0 : Rect S4000x128 := Rect.unit (s := S4000x128) ![0, 0] S4000x128.size inb_S4000x128_S4000x128_0_0
abbrev rN10 : Rect S4000x1 := Rect.unit (s := S4000x1) ![0, 0] S4000x1.size inb_S4000x1_S4000x1_0_0
abbrev rFF0 : Rect S128x128 := Rect.unit (s := S128x128) ![0, 0] S128x128.size inb_S128x128_S128x128_0_0
abbrev r1F0 : Rect S1x128 := Rect.unit (s := S1x128) ![0, 0] S1x128.size inb_S1x128_S1x128_0_0

/-- The output block after the body, from the six input blocks: its one store as a piece. -/
def out0_6 (x0 x1 : Vec F S4000x128 .f32) (x2 : Vec F S4000x1 .f32) (x3 : Vec F S128x128 .f32) (x4 : Vec F S1x128 .f32) (x5 : Vec F S128x128 .f32) : Vec F S4000x128 .f32 :=
  View.canon [⟨rNF0, k0_pay1 (View.ld x2 rN10) (View.ld x0 rNF0) (View.ld x1 rNF0) (View.ld x3 rFF0) (View.ld x5 rFF0) (View.ld x4 r1F0)⟩]

/-- The one store covers the block. -/
theorem cover0_6 (p0 : Vec F S4000x128 .f32) (y : S4000x128.Idx) :
    ∃ pc ∈ ([⟨rNF0, p0⟩] : List (View.Piece (Elt F) S4000x128 .f32)), y ∈ pc.1.set :=
  View.cover_of_tiled [⟨rNF0, p0⟩] S4000x128.size (by rfl) y

set_option maxHeartbeats 4000000 in
/-- The body on whole staging memrefs: the inputs keep their contents, the output ends at `out0_6` of them. -/
theorem sound_kernel0 (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S4000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S4000x128 .f32) (harg7 : arg7.IsWhole)
    (x0 x1 : Vec F S4000x128 .f32) (x2 : Vec F S4000x1 .f32) (x3 : Vec F S128x128 .f32) (x4 : Vec F S1x128 .f32) (x5 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__sage_dense_kernel i arg1 harg1 arg2 harg2 arg3 harg3 arg4 harg4 arg5 harg5 arg6 harg6 arg7 harg7) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core `c`: the arrays as the region finds them; after the body each input's
    buffer at its block and the output's at `out0_6` of the input blocks; the plain invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.R1.lean ====
import proofs.«430213_j38500086841935_1_alg».proof.Proof.Gen.Kernel.Launch
import proofs.«430213_j38500086841935_1_alg».proof.Proof.Gen.Kernel.Skeleton
import proofs.«430213_j38500086841935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: `cc1__sage_dense_kernel` at the contents `V` its region is entered from.
One grid point handles a block of 4000 nodes: it loads the aggregated block, the node block, the degree
column and the three weight arrays whole, and stores one 4000 x 128 block of the layer's output. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rNF1 : Rect S4000x128 := Rect.unit (s := S4000x128) ![0, 0] S4000x128.size inb_S4000x128_S4000x128_0_0
abbrev rN11 : Rect S4000x1 := Rect.unit (s := S4000x1) ![0, 0] S4000x1.size inb_S4000x1_S4000x1_0_0
abbrev rFF1 : Rect S128x128 := Rect.unit (s := S128x128) ![0, 0] S128x128.size inb_S128x128_S128x128_0_0
abbrev r1F1 : Rect S1x128 := Rect.unit (s := S1x128) ![0, 0] S1x128.size inb_S1x128_S1x128_0_0

/-- The output block after the body, from the six input blocks: its one store as a piece. -/
def out1_6 (x0 x1 : Vec F S4000x128 .f32) (x2 : Vec F S4000x1 .f32) (x3 : Vec F S128x128 .f32) (x4 : Vec F S1x128 .f32) (x5 : Vec F S128x128 .f32) : Vec F S4000x128 .f32 :=
  View.canon [⟨rNF1, k1_pay1 (View.ld x2 rN11) (View.ld x0 rNF1) (View.ld x1 rNF1) (View.ld x3 rFF1) (View.ld x5 rFF1) (View.ld x4 r1F1)⟩]

/-- The one store covers the block. -/
theorem cover1_6 (p0 : Vec F S4000x128 .f32) (y : S4000x128.Idx) :
    ∃ pc ∈ ([⟨rNF1, p0⟩] : List (View.Piece (Elt F) S4000x128 .f32)), y ∈ pc.1.set :=
  View.cover_of_tiled [⟨rNF1, p0⟩] S4000x128.size (by rfl) y

set_option maxHeartbeats 4000000 in
/-- The body on whole staging memrefs: the inputs keep their contents, the output ends at `out1_6` of them. -/
theorem sound_kernel1 (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S4000x128 .f32) (harg7 : arg7.IsWhole)
    (x0 x1 : Vec F S4000x128 .f32) (x2 : Vec F S4000x1 .f32) (x3 : Vec F S128x128 .f32) (x4 : Vec F S1x128 .f32) (x5 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__sage_dense_kernel i arg1 harg1 arg2 harg2 arg3 harg3 arg4 harg4 arg5 harg5 arg6 harg6 arg7 harg7) K := by
  simp only [cc1__sage_dense_kernel_eq_skeleton]; unfold cc1__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body each input's
    buffer at its block and the output's at `out1_6` of the input blocks; the plain invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.R2.lean ====
import proofs.«430213_j38500086841935_1_alg».proof.Proof.Gen.Kernel.Launch
import proofs.«430213_j38500086841935_1_alg».proof.Proof.Gen.Kernel.Skeleton
import proofs.«430213_j38500086841935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: `cc2__pool_kernel` at the contents `V` its region is entered from.
One grid point handles a block of 4000 nodes: it adds, into a 64 x 128 accumulator carried from point to point, the
product of the transposed one-hot encoding of the block's graph ids with the block's features; the first point
zero-fills the accumulator beforehand; the last point divides it by the graph sizes (at least one), multiplies by the
final weights, adds the bias and stores the 64 x 2 output, which is written back there only. -/

/-! ## The body's two branch conditions, from the grid coordinate -/

/-- The first conditional's condition: the grid coordinate is 0 (the point that zero-fills the accumulator). -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 10 = 0 :=
  (by decide +kernel : ∀ t : Fin grid2.N, cond2_0 (grid2.coords t) ↔ t.val % 10 = 0)

/-- The second conditional's condition: the grid coordinate is 9 (the point that finishes and stores the output). -/
abbrev cond2_1 (i : grid2.Coords) : Prop := k2_cond2 i = 1#1
/-- It holds at the last point only. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the second condition fails nothing is stored into the output: the window is idle there, -/
theorem idleAt2_5 : ∀ t : Fin cfg2.N, ¬cond2_1 (grid2.coords t) → cfg2.idle 5 (grid2.coords t) = true := by decide +kernel
/-- and its block is not written back. -/
theorem noFlush2_5 : ∀ t : Fin cfg2.N, ¬cond2_1 (grid2.coords t) → (cfg2.win 5).flush t = false := by decide +kernel
/-- Where it holds the output is stored: the window is live. -/
theorem liveAt2_5 : ∀ t : Fin cfg2.N, cond2_1 (grid2.coords t) → cfg2.idle 5 (grid2.coords t) = false := by decide +kernel

/-! ## The staging memrefs at a point, and the accumulator -/

/-- One staging buffer of the output window, through which its contents are stated. -/
abbrev VO2_5 : View sig .tc .vmem S64x2 .f32 := (Memref.whole cc2_stg5_0 : Memref sig .tc .vmem S64x2 .f32).view
/-- Each window's current staging memref at point `t`, and its wholeness. -/
abbrev ms2_0 (t : Fin cfg2.N) : Memref sig .tc .vmem S4000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x2 .f32 := win2_5.stage (cfg2.slots t 5)
abbrev hs2_5 (t : Fin cfg2.N) : (ms2_5 t).IsWhole := hstage2_5 ((cfg2.slots t 5).cast nbuf2_5)
/-- The accumulator: a whole scoped buffer of the kernel's own, passed beside the windows and carried from point to point. -/
abbrev scM2_0 : Memref sig .tc .vmem S64x128 .f32 := Memref.whole cc2_scratch0
/-- The accumulator as a view: what it holds is stated through it. -/
abbrev VS2_0 : View sig .tc .vmem S64x128 .f32 := scM2_0.view

/-- The core's scoped buffers that are no staging buffer of this call: the staging buffers of the two calls before it,
    each at some contents, and `P` in the place of the accumulator. -/
def scopedWith2 (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ P)

/-- The accumulator's part is taken out and another put back; the other calls' buffers are not looked at. -/
theorem scopedWith2_swap (c : Dev nD) (P Q : sProp 𝕄) :
    scopedWith2 (F := F) c P ⊢ iprop(P ∗ (Q -∗ scopedWith2 (F := F) c Q)) := by
  unfold scopedWith2
  iintro ⟨R1, R2, R3, R4, R5, R6, R7, R8, R9, R10, R11, R12, R13, R14, R15, R16, R17, R18, R19, R20, R21, R22, HP⟩
  isplitl [HP]; · iexact HP
  iintro HQ
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  isplitl [R22]; · iexact R22
  iexact HQ

/-- What the launch hands the region, with the accumulator as a memref owned at some contents. -/
theorem PhiA2_eq (c : Dev nD) :
    (Pipeline.ΦA spec2 c : sProp 𝕄)
      = iprop(scopedWith2 (F := F) c iprop(∃ d, owns (c : Thread nD τ) scM2_0 fullShare d) ∗ (∃ r, prngReg c r)) := by
  unfold Pipeline.ΦA scopedWith2; rw [scopedRest2_eq]; simp only [scM2_0, owns_whole]; try rfl

/-! ## The body run whole, case by case

The body's stores into the accumulator and into the output's staging buffer, as lists of pieces (last first), with the
proof that on whole memrefs — the five inputs at their contents — it runs to a continuation that holds the inputs as
they were and the stored buffers with those pieces written. -/

set_option maxHeartbeats 4000000 in
/-- The first point (first condition holds, second fails): the accumulator, at anything, is zero-filled and then takes
    this block's contribution; the output's buffer is handed back untouched. -/
noncomputable def kernelRun2_A (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : cond2_0 i) (hc1 : ¬cond2_1 i)
    (x0 : Vec F S4000x128 .f32) (x1 : Vec F S4000x1 .i32) (x2 : Vec F S64x1 .f32) (x3 : Vec F S128x2 .f32) (x4 : Vec F S1x2 .f32) :
    Σ' (L5 : List (View.Piece (Elt F) S64x2 .f32)), { LS0 : List (View.Piece (Elt F) S64x128 .f32) //
      ∀ (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- A middle point (both conditions fail): the accumulator, at what the point before left, takes this block's
    contribution; the output's buffer is handed back untouched. -/
noncomputable def kernelRun2_B (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : ¬cond2_1 i)
    (x0 : Vec F S4000x128 .f32) (x1 : Vec F S4000x1 .i32) (x2 : Vec F S64x1 .f32) (x3 : Vec F S128x2 .f32) (x4 : Vec F S1x2 .f32) (xs0 : Vec F S64x128 .f32) :
    Σ' (L5 : List (View.Piece (Elt F) S64x2 .f32)), { LS0 : List (View.Piece (Elt F) S64x128 .f32) //
      ∀ (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- The last point (first condition fails, second holds): the accumulator, at what the point before left, takes this
    block's contribution, and the output's buffer, at anything, is stored from it. -/
noncomputable def kernelRun2_C (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) :
    Σ' (L5 : List (View.Piece (Elt F) S64x2 .f32)), { LS0 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves: covers, and the pieces read through the skeleton's payloads -/

/-- The whole-buffer rectangles have zero offsets. -/
theorem hz2 : (![0, 0] : Fin 2 → Nat) = fun _ => 0 := funext fun a => by fin_cases a <;> rfl

/-- At the first point the accumulator's two stores (the zero fill, then the update) cover it. -/
theorem scover2_A_0 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : cond2_0 i) (hc1 : ¬cond2_1 i)
    (x0 : Vec F S4000x128 .f32) (x1 : Vec F S4000x1 .i32) (x2 : Vec F S64x1 .f32) (x3 : Vec F S128x2 .f32) (x4 : Vec F S1x2 .f32) (y : S64x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S64x128.size (by sl_kernel_rfl) y

/-- At a middle point the accumulator's one store covers it. -/
theorem scover2_B_0 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : ¬cond2_1 i)
    (x0 : Vec F S4000x128 .f32) (x1 : Vec F S4000x1 .i32) (x2 : Vec F S64x1 .f32) (x3 : Vec F S128x2 .f32) (x4 : Vec F S1x2 .f32) (xs0 : Vec F S64x128 .f32) (y : S64x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S64x128.size (by sl_kernel_rfl) y

/-- At the last point the accumulator's one store covers it, -/
theorem scover2_C_0 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) (y : S64x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S64x128.size (by sl_kernel_rfl) y

/-- and the output's one store covers its block. -/
theorem cover2_C_5 (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) (y : S64x2.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S64x2.size (by sl_kernel_rfl) y

set_option maxHeartbeats 1000000 in
/-- First point: the accumulator ends at the update payload of the batch block, the feature block and the zero fill
    (the update loads back what the fill stored). -/
theorem canonS2_A (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : cond2_0 i) (hc1 : ¬cond2_1 i)
    (x0 : Vec F S4000x128 .f32) (x1 : Vec F S4000x1 .i32) (x2 : Vec F S64x1 .f32) (x3 : Vec F S128x2 .f32) (x4 : Vec F S1x2 .f32) :
    View.canon (kernelRun2_A c i arg1 harg1 arg2 harg2 arg3 harg3 arg4 harg4 arg5 harg5 arg6 harg6 arg7 harg7 hc0 hc1 x0 x1 x2 x3 x4).2.1 = k2_pay2 x1 x0 (k2_pay1 (F := F)) := by
  unfold kernelRun2_A
  dsimp only
  sl_unfold_words
  rw [View.canon_cons_unit_zero (S := S64x128) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

set_option maxHeartbeats 1000000 in
/-- Middle point: the accumulator ends at the update payload of the two blocks and what it held. -/
theorem canonS2_B (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : ¬cond2_1 i)
    (x0 : Vec F S4000x128 .f32) (x1 : Vec F S4000x1 .i32) (x2 : Vec F S64x1 .f32) (x3 : Vec F S128x2 .f32) (x4 : Vec F S1x2 .f32) (xs0 : Vec F S64x128 .f32) :
    View.canon (kernelRun2_B c i arg1 harg1 arg2 harg2 arg3 harg3 arg4 harg4 arg5 harg5 arg6 harg6 arg7 harg7 hc0 hc1 x0 x1 x2 x3 x4 xs0).2.1 = k2_pay2 x1 x0 xs0 := by
  unfold kernelRun2_B
  dsimp only
  sl_unfold_words
  rw [View.canon_unit_zero (S := S64x128) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

set_option maxHeartbeats 1000000 in
/-- Last point: the accumulator ends at the update payload of the two blocks and what it held, -/
theorem canonS2_C (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) :
    View.canon (kernelRun2_C c i arg1 harg1 arg2 harg2 arg3 harg3 arg4 harg4 arg5 harg5 arg6 harg6 arg7 harg7 hc0 hc1 x0 x1 x2 x3 x4 xs0).2.1 = k2_pay2 x1 x0 xs0 := by
  unfold kernelRun2_C
  dsimp only
  sl_unfold_words
  rw [View.canon_unit_zero (S := S64x128) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

set_option maxHeartbeats 1000000 in
/-- and the output's block at the finishing payload of that (the finish loads back what the update stored), the count
    column, the weights and the bias. -/
theorem canonO2_C (c : Dev nD) (i : grid2.Coords) (arg1 : Memref sig .tc .vmem S4000x128 .f32) (harg1 : arg1.IsWhole) (arg2 : Memref sig .tc .vmem S4000x1 .i32) (harg2 : arg2.IsWhole) (arg3 : Memref sig .tc .vmem S64x1 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S64x2 .f32) (harg6 : arg6.IsWhole) (arg7 : Memref sig .tc .vmem S64x128 .f32) (harg7 : arg7.IsWhole) (hc0 : ¬cond2_0 i) (hc1 : cond2_1 i)
    (x0 : Vec F S4000x128 .f32) (x1 : Vec F S4000x1 .i32) (x2 : Vec F S64x1 .f32) (x3 : Vec F S128x2 .f32) (x4 : Vec F S1x2 .f32) (xs0 : Vec F S64x128 .f32) :
    View.canon (kernelRun2_C c i arg1 harg1 arg2 harg2 arg3 harg3 arg4 harg4 arg5 harg5 arg6 harg6 arg7 harg7 hc0 hc1 x0 x1 x2 x3 x4 xs0).1 = k2_pay3 (k2_pay2 x1 x0 xs0) x2 x3 x4 := by
  unfold kernelRun2_C
  dsimp only
  sl_unfold_words
  rw [View.canon_unit_zero (S := S64x2) hz2]
  simp only [View.readAt_eq_ld, harg1.read_unread, harg2.read_unread, harg3.read_unread, harg4.read_unread, harg5.read_unread, harg7.read_unread, View.ld_unit_zero (S := S4000x128) hz2, View.ld_unit_zero (S := S4000x1) hz2, View.ld_unit_zero (S := S64x128) hz2, View.ld_unit_zero (S := S64x1) hz2, View.ld_unit_zero (S := S128x2) hz2, View.ld_unit_zero (S := S1x2) hz2, View.readCov_unit_zero (S := S64x128) _ hz2]

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulator and the output hold after each point -/

/-- Where the output window is idle nothing reads what the proof data names for it: a placeholder. -/
def out2_idle_5 : Vec F S64x2 .f32 := VO2_5.read (Elt F) VO2_5.junk

/-- What output window 5's staging buffer (first component) and the carried scratch (second) hold after the body at position `n`:
    the accumulator starts from the zero fill at the first point and takes each point's batch block and feature block
    through the update payload; the output is the finishing payload of the accumulator at the last point. -/
def outsAt2 (c : Dev nD) : (n : ℕ) → n < cfg2.N → Vec F S64x2 .f32 × Vec F S64x128 .f32
  | 0, hn => (out2_idle_5, k2_pay2 (iblk2 V c 1 ⟨0, hn⟩) (iblk2 V c 0 ⟨0, hn⟩) (k2_pay1 (F := F)))
  | n + 1, hn =>
    if (n + 1) % 10 = 9 then
      (k2_pay3 (k2_pay2 (iblk2 V c 1 ⟨n + 1, hn⟩) (iblk2 V c 0 ⟨n + 1, hn⟩) (outsAt2 c n (Nat.lt_of_succ_lt hn)).2)
          (iblk2 V c 2 ⟨n + 1, hn⟩) (iblk2 V c 3 ⟨n + 1, hn⟩) (iblk2 V c 4 ⟨n + 1, hn⟩),
        k2_pay2 (iblk2 V c 1 ⟨n + 1, hn⟩) (iblk2 V c 0 ⟨n + 1, hn⟩) (outsAt2 c n (Nat.lt_of_succ_lt hn)).2)
    else
      (out2_idle_5, k2_pay2 (iblk2 V c 1 ⟨n + 1, hn⟩) (iblk2 V c 0 ⟨n + 1, hn⟩) (outsAt2 c n (Nat.lt_of_succ_lt hn)).2)

/-- The recursion's step, written out. -/
theorem outsAt2_succ_eq (c : Dev nD) (n : ℕ) (hn : n + 1 < cfg2.N) :
    outsAt2 V c (n + 1) hn =
      if (n + 1) % 10 = 9 then
        (k2_pay3 (k2_pay2 (iblk2 V c 1 ⟨n + 1, hn⟩) (iblk2 V c 0 ⟨n + 1, hn⟩) (outsAt2 V c n (Nat.lt_of_succ_lt hn)).2)
            (iblk2 V c 2 ⟨n + 1, hn⟩) (iblk2 V c 3 ⟨n + 1, hn⟩) (iblk2 V c 4 ⟨n + 1, hn⟩),
          k2_pay2 (iblk2 V c 1 ⟨n + 1, hn⟩) (iblk2 V c 0 ⟨n + 1, hn⟩) (outsAt2 V c n (Nat.lt_of_succ_lt hn)).2)
      else
        (out2_idle_5, k2_pay2 (iblk2 V c 1 ⟨n + 1, hn⟩) (iblk2 V c 0 ⟨n + 1, hn⟩) (outsAt2 V c n (Nat.lt_of_succ_lt hn)).2) := by
  rw [outsAt2]

/-- The accumulator after the first point. -/
theorem outsAt2_snd_zero (c : Dev nD) (t : Fin cfg2.N) (hz : t.val = 0) :
    (outsAt2 V c t.val t.isLt).2 = k2_pay2 (iblk2 V c 1 t) (iblk2 V c 0 t) (k2_pay1 (F := F)) := by
  obtain ⟨n, hn⟩ := t
  cases n with
  | zero => rfl
  | succ n => exact absurd hz (Nat.succ_ne_zero n)

/-- The accumulator after a later point, from what the point before left. -/
theorem outsAt2_snd_pos (c : Dev nD) (t : Fin cfg2.N) (hz : t.val ≠ 0) :
    (outsAt2 V c t.val t.isLt).2
      = k2_pay2 (iblk2 V c 1 t) (iblk2 V c 0 t) (outsAt2 V c (t.val - 1) (Nat.lt_of_le_of_lt (Nat.sub_le _ _) t.isLt)).2 := by
  obtain ⟨n, hn⟩ := t
  cases n with
  | zero => exact absurd rfl hz
  | succ n =>
    show (outsAt2 V c (n + 1) hn).2
      = k2_pay2 (iblk2 V c 1 ⟨n + 1, hn⟩) (iblk2 V c 0 ⟨n + 1, hn⟩) (outsAt2 V c n (Nat.lt_of_succ_lt hn)).2
    rw [outsAt2_succ_eq]; split <;> rfl

/-- The output's block after the last point, from what the point before left in the accumulator. -/
theorem outsAt2_fst_last (c : Dev nD) (t : Fin cfg2.N) (h1 : t.val % 10 = 9) :
    (outsAt2 V c t.val t.isLt).1
      = k2_pay3 (k2_pay2 (iblk2 V c 1 t) (iblk2 V c 0 t) (outsAt2 V c (t.val - 1) (Nat.lt_of_le_of_lt (Nat.sub_le _ _) t.isLt)).2)
          (iblk2 V c 2 t) (iblk2 V c 3 t) (iblk2 V c 4 t) := by
  obtain ⟨n, hn⟩ := t
  cases n with
  | zero => exact absurd (show 0 % 10 = 9 from h1) (by decide)
  | succ n =>
    show (outsAt2 V c (n + 1) hn).1
      = k2_pay3 (k2_pay2 (iblk2 V c 1 ⟨n + 1, hn⟩) (iblk2 V c 0 ⟨n + 1, hn⟩) (outsAt2 V c n (Nat.lt_of_succ_lt hn)).2)
          (iblk2 V c 2 ⟨n + 1, hn⟩) (iblk2 V c 3 ⟨n + 1, hn⟩) (iblk2 V c 4 ⟨n + 1, hn⟩)
    rw [outsAt2_succ_eq, if_pos h1]

/-- The region invariant before position `n`: before the first point what the launch hands over (the accumulator at
    anything); afterwards the same with the accumulator at what the point before left in it. -/
def PhiS2 (c : Dev nD) : (n : ℕ) → n ≤ cfg2.N → sProp 𝕄
  | 0, _ => Pipeline.ΦA spec2 c
  | n + 1, hn => iprop(scopedWith2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scopedWith2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(scopedWith2 (F := F) c (owns (c : Thread nD τ) scM2_0 fullShare ((outsAt2 V c (n - 1) (by omega)).2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the two conditions' closed forms say which case the
    point is in; the invariant hands the body the accumulator (at anything at the first point, else at what the point
    before left) and takes it back at this point's contents, which the case's pieces read to through the payloads;
    the output's buffer is handed back as found where the window is idle, and at the finishing payload at the last
    point; the other calls' buffers, the generator register and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 10 = 0
  · have h1 : ¬t.val % 10 = 9 := by omega
    have hz : t.val = 0 := by omega
    rw [Dat.leavesExact_idle (dat2 V c) 5 t (idleAt2_5 t (fun h => h1 ((hcond2_1 t).mp h))) (noFlush2_5 t (fun h => h1 ((hcond2_1 t).mp h)))]
    rw [PhiS2_castSucc V c t, PhiS2_zero V c _ _ hz, PhiA2_eq]
    iintro ⟨⟨HR, Hg⟩, Ho, ⟨%d0, H0⟩, ⟨%d1, H1⟩, ⟨%d2, H2⟩, ⟨%d3, H3⟩, ⟨%d4, H4⟩, ⟨%d5, H5⟩⟩
    icases (scopedWith2_swap (F := F) c _ (owns (c : Thread nD τ) scM2_0 fullShare ((outsAt2 V c t.val t.isLt).2))) $$ HR with ⟨HS0, Hback⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg Hback]
    · isplitl [HS0 Hback]
      · iapply Hback
        unfold owns; iexists _; isplitr
        swap; · iexact HS0
        ipureintro
        exact ((View.read_writes_eq_canon _ _ _ (scover2_A_0 c _ _ _ _ _ _ _ _ _ _ _ _ _ _ _ _ _ _ _ _ _ _)).trans (canonS2_A c _ _ _ _ _ _ _ _ _ _ _ _ _ _ _ _ _ _ _ _ _ _)).trans (outsAt2_snd_zero V c t hz).symm
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 10 = 9
    · rw [show (dat2 V c).leavesExact 5 t = owns (c : Thread nD τ) (ms2_5 t) fullShare ((dat2 V c).after 5 t) from by
        unfold Dat.leavesExact; rw [liveAt2_5 t ((hcond2_1 t).mpr h1)], after2_5]
      rw [PhiS2_castSucc V c t, PhiS2_pos V c _ _ hz]
      iintro ⟨⟨HR, Hg⟩, Ho, ⟨%d0, H0⟩, ⟨%d1, H1⟩, ⟨%d2, H2⟩, ⟨%d3, H3⟩, ⟨%d4, H4⟩, ⟨%d5, H5⟩⟩
      icases (scopedWith2_swap (F := F) c _ (owns (c : Thread nD τ) scM2_0 fullShare ((outsAt2 V c t.val t.isLt).2))) $$ HR with ⟨HS0, Hback⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hback]
      · isplitl [HS0 Hback]
        · iapply Hback
          unfold owns; iexists _; isplitr
          swap; · iexact HS0
          ipureintro
          exact ((View.read_writes_eq_canon _ _ _ (scover2_C_0 c _ _ _ _ _ _ _ _ _ _ _ _ _ _ _ _ _ _ _ _ _ _ _)).trans (canonS2_C c _ _ _ _ _ _ _ _ _ _ _ _ _ _ _ _ _ _ _ _ _ _ _)).trans (outsAt2_snd_pos V c t hz).symm
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact ((View.read_writes_eq_canon _ _ _ (cover2_C_5 c _ _ _ _ _ _ _ _ _ _ _ _ _ _ _ _ _ _ _ _ _ _ _)).trans (canonO2_C c _ _ _ _ _ _ _ _ _ _ _ _ _ _ _ _ _ _ _ _ _ _ _)).trans (outsAt2_fst_last V c t h1).symm
    · rw [Dat.leavesExact_idle (dat2 V c) 5 t (idleAt2_5 t (fun h => h1 ((hcond2_1 t).mp h))) (noFlush2_5 t (fun h => h1 ((hcond2_1 t).mp h)))]
      rw [PhiS2_castSucc V c t, PhiS2_pos V c _ _ hz]
      iintro ⟨⟨HR, Hg⟩, Ho, ⟨%d0, H0⟩, ⟨%d1, H1⟩, ⟨%d2, H2⟩, ⟨%d3, H3⟩, ⟨%d4, H4⟩, ⟨%d5, H5⟩⟩
      icases (scopedWith2_swap (F := F) c _ (owns (c : Thread nD τ) scM2_0 fullShare ((outsAt2 V c t.val t.isLt).2))) $$ HR with ⟨HS0, Hback⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hback]
      · isplitl [HS0 Hback]
        · iapply Hback
          unfold owns; iexists _; isplitr
          swap; · iexact HS0
          ipureintro
          exact ((View.read_writes_eq_canon _ _ _ (scover2_B_0 c _ _ _ _ _ _ _ _ _ _ _ _ _ _ _ _ _ _ _ _ _ _ _)).trans (canonS2_B c _ _ _ _ _ _ _ _ _ _ _ _ _ _ _ _ _ _ _ _ _ _ _)).trans (outsAt2_snd_pos V c t hz).symm
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HR, Hg⟩
  isplitl [HR]
  · icases (scopedWith2_swap (F := F) c _ iprop(∃ d, owns (c : Thread nD τ) scM2_0 fullShare d)) $$ HR with ⟨HS0, Hback⟩
    iapply Hback
    iexists _; iexact HS0
  iexact Hg

/-- After the last point the invariant gives the launch's back. -/
theorem hout2 (c : Dev nD) : (dat2 V c).Φ (Fin.last cfg2.N) ⊢ Pipeline.ΦA spec2 c :=
  Phi_out2 V c _ (by rw [Fin.val_last]; have : cfg2.N = 10 := N_2; omega)

/-! ## What the carried scratch and the output hold, through the skeleton's payloads (for the value proof) -/

/-- After the first point the scratch holds the first block's contribution added to the zero fill. -/
theorem acc2_zero (c : Dev nD) (h : 0 < cfg2.N) :
    (outsAt2 V c 0 h).2 = k2_pay2 (iblk2 V c 1 ⟨0, h⟩) (iblk2 V c 0 ⟨0, h⟩) (k2_pay1 (F := F)) :=
  outsAt2_snd_zero V c ⟨0, h⟩ rfl

/-- After a later point the scratch holds that block's contribution added to what the point before left. -/
theorem acc2_succ (c : Dev nD) (n : ℕ) (h : n + 1 < cfg2.N) :
    (outsAt2 V c (n + 1) h).2 = k2_pay2 (iblk2 V c 1 ⟨n + 1, h⟩) (iblk2 V c 0 ⟨n + 1, h⟩) (outsAt2 V c n (Nat.lt_of_succ_lt h)).2 :=
  outsAt2_snd_pos V c ⟨n + 1, h⟩ (Nat.succ_ne_zero n)

/-- At the last point the output block is the finishing payload of the scratch's final contents. -/
theorem out2_last (c : Dev nD) (h : 9 < cfg2.N) :
    (outsAt2 V c 9 h).1 = k2_pay3 (outsAt2 V c 9 h).2 (iblk2 V c 2 ⟨9, h⟩) (iblk2 V c 3 ⟨9, h⟩) (iblk2 V c 4 ⟨9, h⟩) := by
  rw [outsAt2_fst_last V c ⟨9, h⟩ rfl, outsAt2_snd_pos V c ⟨9, h⟩ (Nat.succ_ne_zero 8)]

end Region

end Cert.Kernel.Hand

end
-- ==== Proof.K.Run.lean ====
import proofs.«430213_j38500086841935_1_alg».proof.Proof.K.R0
import proofs.«430213_j38500086841935_1_alg».proof.Proof.K.R1
import proofs.«430213_j38500086841935_1_alg».proof.Proof.K.R2
import proofs.«430213_j38500086841935_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: the first host stretch, layer 1 over the node tiles, the second host
stretch, layer 2 over the node tiles, the third host stretch, the pooling call.

## The buffer contents at each boundary: a fold through the program from the launch memory -/

/-- Core `c`'s buffers at launch. -/
abbrev W0 : Dev nD → Valuation τ sig (Elt F) := fun c b => (s₀ m ρ).mem ((c : Dev nD), b)
/-- After the first host stretch (layer 1's entry): the edge lists split, the in-degrees counted, the neighbour
    rows of the input gathered and summed, layer 1's bias as a row. -/
abbrev W1 : Dev nD → Valuation τ sig (Elt F) := fun c => StableHlo.after hostOps0 (W0 m ρ c)
/-- The same read at the TensorCore's references (what layer 1's proof data take). -/
abbrev V1 : (c : Dev nD) → (b : Ref sig .tc) → Buf (Elt F) ((c : Thread nD τ).loc b) := fun c b => W1 m ρ c b
/-- At layer 1's exit: its arrays at what the ten tiles leave (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (layer 1's exit contents). -/
abbrev V2 : (c : Dev nD) → (b : Ref sig .tc) → Buf (Elt F) ((c : Thread nD τ).loc b) := fun c b => W2 m ρ c b
/-- At layer 1's exit each of its arrays holds what the tiles leave, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (layer 2's entry): the neighbour rows of layer 1's output gathered and summed,
    layer 2's bias as a row. -/
abbrev W3 : Dev nD → Valuation τ sig (Elt F) := fun c => StableHlo.after hostOps1 (W2 m ρ c)
/-- The same read at the TensorCore's references (what layer 2's proof data take). -/
abbrev V3 : (c : Dev nD) → (b : Ref sig .tc) → Buf (Elt F) ((c : Thread nD τ).loc b) := fun c b => W3 m ρ c b
/-- At layer 2's exit: its arrays at what the ten tiles leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (layer 2's exit contents). -/
abbrev V4 : (c : Dev nD) → (b : Ref sig .tc) → Buf (Elt F) ((c : Thread nD τ).loc b) := fun c b => W4 m ρ c b
/-- At layer 2's exit each of its arrays holds what the tiles leave, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the pooling call's entry): the graph ids as a column, the nodes per graph
    counted, the output bias as a row. -/
abbrev W5 : Dev nD → Valuation τ sig (Elt F) := fun c => StableHlo.after hostOps2 (W4 m ρ c)
/-- The same read at the TensorCore's references (what the pooling call's proof data take). -/
abbrev V5 : (c : Dev nD) → (b : Ref sig .tc) → Buf (Elt F) ((c : Thread nD τ).loc b) := fun c b => W5 m ρ c b
/-- At the pooling call's exit: its arrays at what the ten tiles leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the pooling call's exit contents). -/
abbrev V6 : (c : Dev nD) → (b : Ref sig .tc) → Buf (Elt F) ((c : Thread nD τ).loc b) := fun c b => W6 m ρ c b
/-- At the pooling call's exit each of its arrays holds what the tiles leave, and every other buffer what it
    held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### The arguments at every boundary: no host stretch writes one, and a region reads one through an input
    window (whose array the write-backs never touch) or does not touch it at all, so the fold at an argument's
    buffer walks back to the launch memory -/

theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from (W2_arr m ρ c 1).trans (((dat0 (V1 m ρ) c).arrAt_in 1 rfl _).trans (A_eq0 (V1 m ρ) c 1))).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from W6_of_ne m ρ c main_arg0 (by decide)).trans (W5_main_arg0 m ρ c)

theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from W2_of_ne m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from W4_of_ne m ρ c main_arg1 (by decide)).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from W6_of_ne m ρ c main_arg1 (by decide)).trans (W5_main_arg1 m ρ c)

theorem W1_main_arg2 (c : Dev nD) : W1 m ρ c (Proc.devRef .tc main_arg2) = m ((c : Thread nD τ).loc main_arg2) :=
  (W1_of m ρ c main_arg2 (by decide)).trans rfl
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from W2_of_ne m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (W5_main_arg2 m ρ c)

theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from (W2_arr m ρ c 3).trans (((dat0 (V1 m ρ) c).arrAt_in 3 rfl _).trans (A_eq0 (V1 m ρ) c 3))).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_main_arg3 m ρ c)

theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_main_arg4 m ρ c)

theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from (W2_arr m ρ c 5).trans (((dat0 (V1 m ρ) c).arrAt_in 5 rfl _).trans (A_eq0 (V1 m ρ) c 5))).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_main_arg5 m ρ c)

theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from (W4_arr m ρ c 3).trans (((dat1 (V3 m ρ) c).arrAt_in 3 rfl _).trans (A_eq1 (V3 m ρ) c 3))).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_main_arg6 m ρ c)

theorem W1_main_arg7 (c : Dev nD) : W1 m ρ c (Proc.devRef .tc main_arg7) = m ((c : Thread nD τ).loc main_arg7) :=
  (W1_of m ρ c main_arg7 (by decide)).trans rfl
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from W2_of_ne m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from W6_of_ne m ρ c main_arg7 (by decide)).trans (W5_main_arg7 m ρ c)

theorem W1_main_arg8 (c : Dev nD) : W1 m ρ c (Proc.devRef .tc main_arg8) = m ((c : Thread nD τ).loc main_arg8) :=
  (W1_of m ρ c main_arg8 (by decide)).trans rfl
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from W2_of_ne m ρ c main_arg8 (by decide)).trans (W1_main_arg8 m ρ c)
theorem W3_main_arg8 (c : Dev nD) : W3 m ρ c (Proc.devRef .tc main_arg8) = m ((c : Thread nD τ).loc main_arg8) :=
  (W3_of m ρ c main_arg8 (by decide)).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from (W4_arr m ρ c 5).trans (((dat1 (V3 m ρ) c).arrAt_in 5 rfl _).trans (A_eq1 (V3 m ρ) c 5))).trans (W3_main_arg8 m ρ c)
theorem W5_main_arg8 (c : Dev nD) : W5 m ρ c (Proc.devRef .tc main_arg8) = m ((c : Thread nD τ).loc main_arg8) :=
  (W5_of m ρ c main_arg8 (by decide)).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from W6_of_ne m ρ c main_arg8 (by decide)).trans (W5_main_arg8 m ρ c)

theorem W1_main_arg9 (c : Dev nD) : W1 m ρ c (Proc.devRef .tc main_arg9) = m ((c : Thread nD τ).loc main_arg9) :=
  (W1_of m ρ c main_arg9 (by decide)).trans rfl
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from W2_of_ne m ρ c main_arg9 (by decide)).trans (W1_main_arg9 m ρ c)
theorem W3_main_arg9 (c : Dev nD) : W3 m ρ c (Proc.devRef .tc main_arg9) = m ((c : Thread nD τ).loc main_arg9) :=
  (W3_of m ρ c main_arg9 (by decide)).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (W3_main_arg9 m ρ c)
theorem W5_main_arg9 (c : Dev nD) : W5 m ρ c (Proc.devRef .tc main_arg9) = m ((c : Thread nD τ).loc main_arg9) :=
  (W5_of m ρ c main_arg9 (by decide)).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from (W6_arr m ρ c 3).trans (((dat2 (V5 m ρ) c).arrAt_in 3 rfl _).trans (A_eq2 (V5 m ρ) c 3))).trans (W5_main_arg9 m ρ c)

theorem W1_main_arg10 (c : Dev nD) : W1 m ρ c (Proc.devRef .tc main_arg10) = m ((c : Thread nD τ).loc main_arg10) :=
  (W1_of m ρ c main_arg10 (by decide)).trans rfl
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from W2_of_ne m ρ c main_arg10 (by decide)).trans (W1_main_arg10 m ρ c)
theorem W3_main_arg10 (c : Dev nD) : W3 m ρ c (Proc.devRef .tc main_arg10) = m ((c : Thread nD τ).loc main_arg10) :=
  (W3_of m ρ c main_arg10 (by decide)).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (W3_main_arg10 m ρ c)
theorem W5_main_arg10 (c : Dev nD) : W5 m ρ c (Proc.devRef .tc main_arg10) = m ((c : Thread nD τ).loc main_arg10) :=
  (W5_of m ρ c main_arg10 (by decide)).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (W5_main_arg10 m ρ c)

/-! ### The arrays one region leaves for a later one -/

/-- The pooled output is the pooling call's output array at what its ten tiles leave. -/
theorem W6_main_v40 (c : Dev nD) : W6 m ρ c (Proc.devRef .tc main_v40) = (dat2 (V5 m ρ) c).arrAt 5 cfg2.N :=
  W6_arr m ρ c 5
/-- Layer 2's output reaches the pooling call as layer 2 left it: the third host stretch does not write it. -/
theorem V5_main_v32 (c : Dev nD) : V5 m ρ c main_v32 = (dat1 (V3 m ρ) c).arrAt 6 cfg1.N :=
  (W5_of m ρ c main_v32 (by decide)).trans (W4_arr m ρ c 6)
/-- Layer 1's output reaches layer 2 as layer 1 left it: the second host stretch does not write it. -/
theorem V3_main_v20 (c : Dev nD) : V3 m ρ c main_v20 = (dat0 (V1 m ρ) c).arrAt 6 cfg0.N :=
  (W3_of m ρ c main_v20 (by decide)).trans (W2_arr m ρ c 6)
/-- The in-degree column reaches layer 2 as the first host stretch left it: layer 1 reads it through an input
    window and the second host stretch does not write it. -/
theorem V3_main_v8 (c : Dev nD) : V3 m ρ c main_v8 = V1 m ρ c main_v8 :=
  (W3_of m ρ c main_v8 (by decide)).trans
    ((W2_arr m ρ c 2).trans (((dat0 (V1 m ρ) c).arrAt_in 2 rfl _).trans (A_eq0 (V1 m ρ) c 2)))
/-- The two edge lists reach the second host stretch as the first left them: layer 1 does not touch them. -/
theorem V2_main_v1 (c : Dev nD) : V2 m ρ c main_v1 = V1 m ρ c main_v1 := W2_of_ne m ρ c main_v1 (by decide)
theorem V2_main_v3 (c : Dev nD) : V2 m ρ c main_v3 = V1 m ρ c main_v3 := W2_of_ne m ρ c main_v3 (by decide)
/-- Layer 1's output is what the second host stretch gathers from. -/
theorem V2_main_v20 (c : Dev nD) : V2 m ρ c main_v20 = (dat0 (V1 m ρ) c).arrAt 6 cfg0.N := W2_arr m ρ c 6

/-! ## The proof data of the three calls together, and what a core holds between two segments -/

/-- The three calls' proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends
    with those references at the stretch's result from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents,
    the generator register at some state. -/
abbrev Tₙ (c : Dev nD) : sProp 𝕄 := iprop(StableHlo.held (c : Thread nD τ) (Pipeline.ucRefs τ sig) (W6 m ρ c) ∗ ∃ r, prngReg c r)

/-! ## The three calls as segments -/

-- a library lemma stated over the pinned configuration unifies with the printed one only when unification may
-- unfold plain definitions in a metavariable's type
set_option backward.isDefEq.respectTransparency.types false in
/-- Layer 1 over the thread state: entered from every unscoped buffer at `W1`, left at `W2`. Its seven arrays split out of the unscoped buffers and put back at the exit contents; the generator register into the call's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Layer 2 over the thread state: entered from every unscoped buffer at `W3`, left at `W4`; the same protocol as layer 1. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The pooling call over the thread state: entered from every unscoped buffer at `W5`, left at `W6` (what the launch reads at the end). Its invariant carries the accumulator between tiles: it is entered from the plain invariant (`hin2`) and gives it back after the last tile (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine .trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and in every final state each unscoped buffer holds the last boundary's contents
    `W6`: the launch over the six segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the run, read at the eleven argument arrays, each of which ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

end Cert.Kernel.Hand

end
-- ==== Proof.lean ====
/- Both programs are the same network: two graph-convolution layers (the neighbour mean against one weight matrix, the
   node's own row against another, a bias, clipped below at zero) and a head that averages the node rows of each graph
   and applies a linear map. The kernel program computes each layer in a call over ten tiles of 4000 nodes whose
   blocks tile the arrays, and the head in a call that sums, tile by tile, a one-hot product of the graph words with
   the node rows; that sum over the tiles is the reference's scatter-add of the rows onto their graphs. The
   aggregations, the in-degree and the graph sizes are the same host operations in both programs, so at the exact
   reals the two results are one function of the launch arguments, and every run leaves the arguments as launched. -/
import proofs.«430213_j38500086841935_1_alg».proof.Defs
import proofs.«430213_j38500086841935_1_alg».proof.Proof.Gen.Kernel
import proofs.«430213_j38500086841935_1_alg».proof.Proof.Gen.Kernel.Skeleton
import proofs.«430213_j38500086841935_1_alg».proof.Proof.Gen.Kernel.Launch
import proofs.«430213_j38500086841935_1_alg».proof.Proof.Gen.Kernel.Regions
import proofs.«430213_j38500086841935_1_alg».proof.Proof.Gen.Kernel.Points
import proofs.«430213_j38500086841935_1_alg».proof.Proof.Gen.KernelIdeal
import proofs.«430213_j38500086841935_1_alg».proof.Proof.Gen.KernelIdeal.Skeleton
import proofs.«430213_j38500086841935_1_alg».proof.Proof.Gen.KernelIdeal.Launch
import proofs.«430213_j38500086841935_1_alg».proof.Proof.Gen.KernelIdeal.Regions
import proofs.«430213_j38500086841935_1_alg».proof.Proof.Gen.KernelIdeal.Points
import proofs.«430213_j38500086841935_1_alg».proof.Proof.Gen.ReferenceIdeal
import proofs.«430213_j38500086841935_1_alg».proof.Proof.Gen.Pre_finite_inputs
import proofs.«430213_j38500086841935_1_alg».proof.Proof.KI.Run
import proofs.«430213_j38500086841935_1_alg».proof.Proof.KI.Bridge
import proofs.«430213_j38500086841935_1_alg».proof.Proof.K.Run
import Idealize.ShloMosaic.Adequacy
import Idealize.ShloMosaic.Init

noncomputable section

namespace Cert.Proof

open Idealize.ShloMosaic Idealize.ShloMosaic.TcCoe Idealize.SL.Sem

/-- The word-level program runs and leaves its eleven arguments as launched: its three calls and three host
    stretches are segments whose boundaries chain, and no stretch or write-back touches an argument. -/
theorem frame_k : Cert.frame_Kernel := fun m ρ _ => Cert.Kernel.Hand.frame (F := Bits) m ρ

/-- The same program read over the exact reals runs and leaves its arguments as launched, by the same segments. -/
theorem frame_ki : Cert.frame_KernelIdeal := fun m ρ _ => Cert.KernelIdeal.Hand.frame (F := Ideal) m ρ

/-- The reference is one line of host operations: it runs, and none of them writes an argument. -/
theorem frame_ri : Cert.frame_ReferenceIdeal := fun m ρ _ =>
  (θ_run Cert.ReferenceIdeal.defs _ _).mono (fun _ h c => (h c).2) (Cert.ReferenceIdeal.Value.run (F := Ideal) m ρ)

/-- The exact-real reading rewrote no operation of the word-level program: there is nothing to restate. -/
theorem preserves : Cert.preserves_Kernel_KernelIdeal := trivial

/-- From memories that agree on the arguments both programs run, leave the arguments as launched, and end with
    the same result: the kernel program's pooled output holds the reference's result term of its own arguments
    (`kernel_value`), and the reference's run ends at that term of arguments equal to those. -/
theorem algebraic : Cert.algebraic_KernelIdeal_ReferenceIdeal := by
  intro m ρ m' ρ' _ hagree
  refine ⟨fun c => Cert.ReferenceIdeal.Read.val_main_v71 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Hand.mem_uc Cert.KernelIdeal.main_v40 (by decide))).trans (Cert.KernelIdeal.Hand.kernel_value m ρ c),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c),
       (h c _ (Cert.KernelIdeal.Hand.mem_uc Cert.KernelIdeal.main_arg7 (by decide))).trans (Cert.KernelIdeal.Hand.W6_main_arg7 m ρ c),
       (h c _ (Cert.KernelIdeal.Hand.mem_uc Cert.KernelIdeal.main_arg8 (by decide))).trans (Cert.KernelIdeal.Hand.W6_main_arg8 m ρ c),
       (h c _ (Cert.KernelIdeal.Hand.mem_uc Cert.KernelIdeal.main_arg9 (by decide))).trans (Cert.KernelIdeal.Hand.W6_main_arg9 m ρ c),
       (h c _ (Cert.KernelIdeal.Hand.mem_uc Cert.KernelIdeal.main_arg10 (by decide))).trans (Cert.KernelIdeal.Hand.W6_main_arg10 m ρ c)⟩) (Cert.KernelIdeal.Hand.run_all m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v71_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
